-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x100000 : Shape := ⟨2, ![1024, 100000]⟩
abbrev S100000x16 : Shape := ⟨2, ![100000, 16]⟩
abbrev S_ : Shape := ⟨0, ![]⟩

class Facts : Prop where
  bcast_S_S1024x100000 : S_.BroadcastsInDim S1024x100000 (![] : Fin 0 → Fin S1024x100000.rank)
  reducesTo_S1024x100000_S_d0_1 : S1024x100000.ReducesTo [0, 1] S_
  h_S_ : 0 < S_.numel
  bcast_S_S100000x16 : S_.BroadcastsInDim S100000x16 (![] : Fin 0 → Fin S100000x16.rank)
  reducesTo_S100000x16_S_d0_1 : S100000x16.ReducesTo [0, 1] S_

variable [Facts]

def fn {F : FTy → Type} [FloatOps F] (main_arg0 : FVec F S1024x100000 .f32) (main_arg1 : FVec F S100000x16 .f32) : IVec S_ 1 :=
  let main_v0 : FVec F S1024x100000 .f32 := Host.absf main_arg0
  let main_cst : FVec F S_ .f32 := constant S_ .f32 0x7F800000#32
  let main_v1 : FVec F S1024x100000 .f32 := broadcastInDim S1024x100000 ![] bcast_S_S1024x100000 main_cst
  let main_v2 : IVec S1024x100000 1 := cmpf .olt main_v0 main_v1
  let main_c : IVec S_ 1 := constantI S_ 1 1#1
  let main_v3 : IVec S_ 1 := (fun x v => Host.reduce IntOp.andi x v reducesTo_S1024x100000_S_d0_1 h_S_) main_v2 main_c
  let main_v4 : FVec F S100000x16 .f32 := Host.absf main_arg1
  let main_cst_0 : FVec F S_ .f32 := constant S_ .f32 0x7F800000#32
  let main_v5 : FVec F S100000x16 .f32 := broadcastInDim S100000x16 ![] bcast_S_S100000x16 main_cst_0
  let main_v6 : IVec S100000x16 1 := cmpf .olt main_v4 main_v5
  let main_c_1 : IVec S_ 1 := constantI S_ 1 1#1
  let main_v7 : IVec S_ 1 := (fun x v => Host.reduce IntOp.andi x v reducesTo_S100000x16_S_d0_1 h_S_) main_v6 main_c_1
  let main_v8 : IVec S_ 1 := andi main_v3 main_v7
  main_v8
-- ==== Kernel.lean ====
abbrev S1024x100000 : Shape := ⟨2, ![1024, 100000]⟩
abbrev S100000x16 : Shape := ⟨2, ![100000, 16]⟩
abbrev S100000x1024 : Shape := ⟨2, ![100000, 1024]⟩
abbrev S16x100000 : Shape := ⟨2, ![16, 100000]⟩
abbrev S1024x16 : Shape := ⟨2, ![1024, 16]⟩
abbrev S3072x1024 : Shape := ⟨2, ![3072, 1024]⟩
abbrev S16x3072 : Shape := ⟨2, ![16, 3072]⟩

abbrev nBuf : Space → Nat
  | .hbm => 5
  | .vmem => 5
  | .smem => 0
  | _ => 0

abbrev bufTy : (tb : Table) → Fin (tcTables nBuf tb) → BufTy
  | .hbm, ⟨0, _⟩ => ⟨S1024x100000, .f32⟩
  | .hbm, ⟨1, _⟩ => ⟨S100000x16, .f32⟩
  | .hbm, ⟨2, _⟩ => ⟨S100000x1024, .f32⟩
  | .hbm, ⟨3, _⟩ => ⟨S16x100000, .f32⟩
  | .hbm, ⟨4, _⟩ => ⟨S1024x16, .f32⟩
  | .local _ .vmem, ⟨0, _⟩ => ⟨S3072x1024, .f32⟩
  | .local _ .vmem, ⟨1, _⟩ => ⟨S3072x1024, .f32⟩
  | .local _ .vmem, ⟨2, _⟩ => ⟨S16x3072, .f32⟩
  | .local _ .vmem, ⟨3, _⟩ => ⟨S16x3072, .f32⟩
  | .local _ .vmem, ⟨4, _⟩ => ⟨S1024x16, .f32⟩
  | _, _ => ⟨S1024x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c32_i32 : BitVec 32 := 32#32
  let v4 : BitVec 1 := Scalar.cmpi .slt arg0 c32_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg0 : BitVec 32 := BitVec.ofNat 32 (i 0).val
  let c32_i32_3 : BitVec 32 := 32#32
  let v8 : BitVec 1 := Scalar.cmpi .eq arg0 c32_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3072x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  transposes_S1024x100000_S100000x1024_1_0 : S1024x100000.Transposes [1, 0] S100000x1024
  transposes_S100000x16_S16x100000_1_0 : S100000x16.Transposes [1, 0] S16x100000
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S16x3072_S16x3072_0_0 : ∀ a, (![0, 0] : Fin 2 → Nat) a + S16x3072.size a ≤ S16x3072.size a
  h_S16x3072 : 0 < S16x3072.numel
  shapeCasts_S16x3072_S16x3072 : S16x3072.ShapeCasts S16x3072
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  iota_S3072x1024_d0_w32 : S3072x1024.Iotas .tc 32 [0]
  iota_S16x3072_d1_w32 : S16x3072.Iotas .tc 32 [1]
  dot_S3072x1024_S16x3072_S1024x16_0_1_1_0_n_n_wf : DotDims.WF S3072x1024 S16x3072 S1024x16 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S3072x1024.size a < S100000x1024.size a
  hwx0_0 : ∀ i : grid0.Coords, EltTy.bits .f32 = 32 ∨ (Rect.unit (s := S100000x1024) (fun a => cc0_transform_0 i a * S3072x1024.size a) (fun a => (Pipeline.Clip.of (cc0_transform_0 i a) (S3072x1024.size a) (S100000x1024.size a)).extent (S3072x1024.size a)) fun a => Pipeline.Clip.inb (Pipeline.Clip.ok_of (hstart0_0 i a))).WholeWords (EltTy.packing .f32)
  hwxs0_0 : ∀ i : grid0.Coords, EltTy.bits .f32 = 32 ∨ (Rect.unit (s := S3072x1024) (fun _ => 0) (fun a => (Pipeline.Clip.of (cc0_transform_0 i a) (S3072x1024.size a) (S100000x1024.size a)).extent (S3072x1024.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S16x3072.size a < S16x100000.size a
  hwx0_1 : ∀ i : grid0.Coords, EltTy.bits .f32 = 32 ∨ (Rect.unit (s := S16x100000) (fun a => cc0_transform_1 i a * S16x3072.size a) (fun a => (Pipeline.Clip.of (cc0_transform_1 i a) (S16x3072.size a) (S16x100000.size a)).extent (S16x3072.size a)) fun a => Pipeline.Clip.inb (Pipeline.Clip.ok_of (hstart0_1 i a))).WholeWords (EltTy.packing .f32)
  hwxs0_1 : ∀ i : grid0.Coords, EltTy.bits .f32 = 32 ∨ (Rect.unit (s := S16x3072) (fun _ => 0) (fun a => (Pipeline.Clip.of (cc0_transform_1 i a) (S16x3072.size a) (S16x100000.size a)).extent (S16x3072.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S1024x16.size a
  hwx0_2 : ∀ i : grid0.Coords, EltTy.bits .f32 = 32 ∨ (Rect.block (s := S1024x16) S1024x16.size (cc0_transform_2 i) (hinb0_2 i)).WholeWords (EltTy.packing .f32)

variable [Facts₀]

def dot_S3072x1024_S16x3072_S1024x16_0_1_1_0_n_n : DotDims S3072x1024 S16x3072 S1024x16 where
  lhsContracting := [0]
  rhsContracting := [1]
  lhsNonContracting := [1]
  rhsNonContracting := [0]
  lhsBatch := []
  rhsBatch := []
  wf := dot_S3072x1024_S16x3072_S1024x16_0_1_1_0_n_n_wf

abbrev win0_0 : Pipeline.Window sig grid0 :=
  Pipeline.Window.ofSpecClip (Memref.whole main_v0) S3072x1024.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v1) S16x3072.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v2) S1024x16.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) && !(k0_cond3 i == 1#1) | ⟨_ + 3, h⟩ => absurd h (Nat.not_lt.2 (Nat.le_add_left _ _))

class Facts : Prop extends Facts₀ where

variable [Facts]
-- ==== ReferenceIdeal.lean ====
abbrev S1024x100000 : Shape := ⟨2, ![1024, 100000]⟩
abbrev S100000x16 : Shape := ⟨2, ![100000, 16]⟩
abbrev S1024x16 : Shape := ⟨2, ![1024, 16]⟩

abbrev nBuf : Space → Nat
  | .hbm => 3
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S100000x16, .f32⟩
  | .hbm, ⟨2, _⟩ => ⟨S1024x16, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S1024x100000_S100000x16_S1024x16_1_0_0_1_n_n_wf : DotDims.WF S1024x100000 S100000x16 S1024x16 [1] [0] [0] [1] [] []

variable [Facts₀]

def dot_S1024x100000_S100000x16_S1024x16_1_0_0_1_n_n : DotDims S1024x100000 S100000x16 S1024x16 where
  lhsContracting := [1]
  rhsContracting := [0]
  lhsNonContracting := [0]
  rhsNonContracting := [1]
  lhsBatch := []
  rhsBatch := []
  wf := dot_S1024x100000_S100000x16_S1024x16_1_0_0_1_n_n_wf

class Facts : Prop extends Facts₀ where

variable [Facts]
-- ==== Proof.KData.lean ====
/-
  The staged contents and the running product of the K-blocked matmul, as data for the pipeline's frame run.

  The kernel walks the contraction axis (length 100000) in 33 slabs of 3072; slab `t` of the transposed
  `x` is a (3072, 1024) block and slab `t` of the transposed `W` a (16, 3072) block. Slab 32 holds only
  1696 rows (columns) of the arrays; the rest of its staging buffer holds words nothing names. Here each staged
  block is written down with the ZERO word on that tail (`xin`, `win`): the last grid point masks the tail to
  zero before it contracts, so what it computes does not depend on the words there, and with the zero filler the
  masked and the unmasked contraction agree. `accAt n` is the (1024, 16) output block after grid point `n`:
  the product of slab 0 at the first point, then the previous block plus the product of slab `n`.
-/
import proofs.«152865_g9947144257871_rerun558fix_369_27_alg».proof.Proof.Gen.Kernel.Frame
import proofs.«152865_g9947144257871_rerun558fix_369_27_alg».proof.Proof.Gen.Kernel.Skeleton

noncomputable section

namespace Cert.Kernel.Hand

open Cert.Kernel Cert.Kernel.Gen
open Idealize.ShloMosaic Idealize.ShloMosaic.TcCoe
open Idealize.SL Idealize.SL.RA Idealize.SL.BI Idealize.SL.Sem
open Idealize.ShloMosaic.Pipeline (Dat Cfg Window)

variable {F : FTy → Type} [FloatOps F]

variable (m : (ℓ : Loc nD τ sig) → Buf (Elt F) ℓ)

/-- The zero word of f32: what the last point's mask writes on the tail, and the filler chosen here. -/
abbrev zw : F .f32 := Scalar.ofBits .f32 0x00000000#32

/-- Slab `t` of the transposed `x` as staged: the rows inside the array, the zero word on the rows past its end. -/
def xin (c : Dev nD) (t : Fin cfg0.N) : Vec F S3072x1024 .f32 :=
  win0_0.fill (grid0.coords t) (fun _ => zw) (iblk m c 0 t)

/-- Slab `t` of the transposed `W` as staged: the columns inside the array, the zero word past its end. -/
def win (c : Dev nD) (t : Fin cfg0.N) : Vec F S16x3072 .f32 :=
  win0_1.fill (grid0.coords t) (fun _ => zw) (iblk m c 1 t)

/-- The output block after grid point `n`: slab 0's product at the first point; at a later point the block the
    point before left plus slab `n`'s product — at the last point (32) with both slabs masked to their first 1696
    rows (columns) first. -/
def accAt (c : Dev nD) : (n : ℕ) → n < cfg0.N → Vec F S1024x16 .f32
  | 0, hn => k0_pay1 (xin m c ⟨0, hn⟩) (win m c ⟨0, hn⟩)
  | n + 1, hn =>
    if n + 1 = 32 then k0_pay3 (xin m c ⟨n + 1, hn⟩) (win m c ⟨n + 1, hn⟩) (accAt c n (Nat.lt_of_succ_lt hn))
    else k0_pay2 (accAt c n (Nat.lt_of_succ_lt hn)) (xin m c ⟨n + 1, hn⟩) (win m c ⟨n + 1, hn⟩)

theorem accAt_zero (c : Dev nD) (hn : 0 < cfg0.N) :
    accAt m c 0 hn = k0_pay1 (xin m c ⟨0, hn⟩) (win m c ⟨0, hn⟩) := rfl

theorem accAt_last (c : Dev nD) (n : ℕ) (hn : n + 1 < cfg0.N) (h : n + 1 = 32) :
    accAt m c (n + 1) hn = k0_pay3 (xin m c ⟨n + 1, hn⟩) (win m c ⟨n + 1, hn⟩) (accAt m c n (Nat.lt_of_succ_lt hn)) :=
  (if_pos h).trans rfl

theorem accAt_mid (c : Dev nD) (n : ℕ) (hn : n + 1 < cfg0.N) (h : ¬n + 1 = 32) :
    accAt m c (n + 1) hn = k0_pay2 (accAt m c n (Nat.lt_of_succ_lt hn)) (xin m c ⟨n + 1, hn⟩) (win m c ⟨n + 1, hn⟩) :=
  (if_neg h).trans rfl

/-- The proof data of the one pipeline on core `c`: the arrays as the region finds them; after the body at point
    `t` the two input buffers at their slabs (zero past the arrays' end) and the output's at `accAt t`; the class's
    invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xin m c t
    | ⟨1, _⟩ => win m c t
    | ⟨2, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = xin m c t := by dsimp only [dats]
theorem after_1 (c : Dev nD) (t : Fin cfg0.N) : (dats m 0 c).after 1 t = win m c t := by dsimp only [dats]
theorem after_2 (c : Dev nD) (t : Fin cfg0.N) : (dats m 0 c).after 2 t = accAt m c t.val t.isLt := by dsimp only [dats]

end Cert.Kernel.Hand

end
-- ==== Proof.KRuns.lean ====
/-
  The kernel body run on whole staging buffers, one theorem per control case. The body has three `scf.if`s on the
  grid coordinate, exactly one of which is taken at a point: the first point stores the slab product; a middle point
  loads the output block, adds the slab product and stores; the last point does the same with both slabs masked.
  In each case the two input buffers are only read and the output buffer ends holding the case's payload of what
  the three buffers held.
-/
import proofs.«152865_g9947144257871_rerun558fix_369_27_alg».proof.Proof.Gen.Kernel.Skeleton
import proofs.«152865_g9947144257871_rerun558fix_369_27_alg».proof.Proof.Gen.Kernel.Launch
import Idealize.ShloMosaic.Lib.Pipeline.FrameBody
import Idealize.ShloMosaic.Lib.Pipeline.Value
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The rank-2 zero offsets, however spelt. -/
private theorem zero2 : (![0, 0] : Fin 2 → Nat) = fun _ => 0 := funext fun a => by fin_cases a <;> rfl

/-- One store through the whole-shape rectangle at zero offsets leaves the buffer reading its payload, whatever the
    buffer held before. -/
private theorem read_writes_unit_zero {sig' : RefSig} {κ : Kind} {sp : Space} {S : Shape} {e : EltTy} {Val : EltTy → Type}
    [∀ e, Nonempty (Val e)] (v : View sig' κ sp S e) (f : v.ty.Contents Val) {off : Fin S.rank → Nat}
    (h : off = fun _ => 0) (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h]

/-- A load through the whole-shape rectangle at zero offsets of a whole memref held at the contents that read `X`
    reads `X`. -/
private theorem readAt_unit_zero_unread {sig' : RefSig} {κ : Kind} {sp : Space} {S : Shape} {e : EltTy} {Val : EltTy → Type}
    {m : Memref sig' κ sp S e} (hm : m.IsWhole) {off : Fin S.rank → Nat}
    (h : off = fun _ => 0) (inb : ∀ a, off a + S.size a ≤ S.size a) (X : S.Idx → Val e) :
    View.readAt Val m.view (Rect.unit off S.size inb).toLoadRect (hm.unread X) = X := by
  rw [View.readAt_eq_ld, hm.read_unread, View.ld_unit_zero h]

set_option maxHeartbeats 1000000 in
/-- The first point: only the first branch is taken; the output buffer ends at the product of the two staged slabs. -/
theorem run_first (c : Dev nD) (i : grid0.Coords)
    (arg1 : Memref sig .tc .vmem S3072x1024 .f32) (harg1 : arg1.IsWhole)
    (arg2 : Memref sig .tc .vmem S16x3072 .f32) (harg2 : arg2.IsWhole)
    (arg3 : Memref sig .tc .vmem S1024x16 .f32) (harg3 : arg3.IsWhole)
    (h1 : k0_cond1 i = 1#1) (h2 : ¬k0_cond2 i = 1#1) (h3 : ¬k0_cond3 i = 1#1)
    (X0 : Vec F S3072x1024 .f32) (X1 : Vec F S16x3072 .f32) (X2 : Vec F S1024x16 .f32)
    (E : Set ℕ) (K : PUnit → sProp 𝕄) :
    iprop(owns (c : Thread nD τ) arg1 fullShare X0 ∗ owns (c : Thread nD τ) arg2 fullShare X1 ∗ owns (c : Thread nD τ) arg3 fullShare X2
        ∗ (iprop(owns (c : Thread nD τ) arg1 fullShare X0 ∗ owns (c : Thread nD τ) arg2 fullShare X1
              ∗ owns (c : Thread nD τ) arg3 fullShare (k0_pay1 X0 X1)) -∗ K ⟨⟩))
      ⊢ wp frame (wpE (defs₀ (F := F)) Variants.none c none) E (cc0__mm_body i arg1 harg1 arg2 harg2 arg3 harg3) K := by
  simp only [cc0__mm_body_eq_skeleton]; unfold cc0__mm_body_skel
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  -- the case's hypotheses decide the three branches; the taken one loads the buffers and stores once
  sl_exec (disch := first | exact h1 | exact h2 | exact h3)
  sl_step
  iapply Hk
  isplitl [H0]
  · iexists _; isplitr; · ipureintro; exact harg1.read_unread _
    iexact H0
  isplitl [H1]
  · iexists _; isplitr; · ipureintro; exact harg2.read_unread _
    iexact H1
  iexists _; isplitr; swap
  · iexact H2
  ipureintro
  -- the one store covers the whole output buffer, so the buffer reads as its payload; each load through the
  -- whole-shape rectangle read what its buffer held
  refine (read_writes_unit_zero arg3.view (harg3.unread X2) zero2 inb_S1024x16_S1024x16_0_0 _).trans ?_
  rw [readAt_unit_zero_unread harg1 zero2 inb_S3072x1024_S3072x1024_0_0 X0,
    readAt_unit_zero_unread harg2 zero2 inb_S16x3072_S16x3072_0_0 X1]

set_option maxHeartbeats 1000000 in
/-- A middle point: only the second branch is taken; the output buffer ends at what it held plus the slabs' product. -/
theorem run_mid (c : Dev nD) (i : grid0.Coords)
    (arg1 : Memref sig .tc .vmem S3072x1024 .f32) (harg1 : arg1.IsWhole)
    (arg2 : Memref sig .tc .vmem S16x3072 .f32) (harg2 : arg2.IsWhole)
    (arg3 : Memref sig .tc .vmem S1024x16 .f32) (harg3 : arg3.IsWhole)
    (h1 : ¬k0_cond1 i = 1#1) (h2 : k0_cond2 i = 1#1) (h3 : ¬k0_cond3 i = 1#1)
    (X0 : Vec F S3072x1024 .f32) (X1 : Vec F S16x3072 .f32) (X2 : Vec F S1024x16 .f32)
    (E : Set ℕ) (K : PUnit → sProp 𝕄) :
    iprop(owns (c : Thread nD τ) arg1 fullShare X0 ∗ owns (c : Thread nD τ) arg2 fullShare X1 ∗ owns (c : Thread nD τ) arg3 fullShare X2
        ∗ (iprop(owns (c : Thread nD τ) arg1 fullShare X0 ∗ owns (c : Thread nD τ) arg2 fullShare X1
              ∗ owns (c : Thread nD τ) arg3 fullShare (k0_pay2 X2 X0 X1)) -∗ K ⟨⟩))
      ⊢ wp frame (wpE (defs₀ (F := F)) Variants.none c none) E (cc0__mm_body i arg1 harg1 arg2 harg2 arg3 harg3) K := by
  simp only [cc0__mm_body_eq_skeleton]; unfold cc0__mm_body_skel
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  -- the case's hypotheses decide the three branches; the taken one loads the buffers and stores once
  sl_exec (disch := first | exact h1 | exact h2 | exact h3)
  sl_step
  iapply Hk
  isplitl [H0]
  · iexists _; isplitr; · ipureintro; exact harg1.read_unread _
    iexact H0
  isplitl [H1]
  · iexists _; isplitr; · ipureintro; exact harg2.read_unread _
    iexact H1
  iexists _; isplitr; swap
  · iexact H2
  ipureintro
  -- the one store covers the whole output buffer, so the buffer reads as its payload; each load through the
  -- whole-shape rectangle read what its buffer held
  refine (read_writes_unit_zero arg3.view (harg3.unread X2) zero2 inb_S1024x16_S1024x16_0_0 _).trans ?_
  rw [readAt_unit_zero_unread harg1 zero2 inb_S3072x1024_S3072x1024_0_0 X0,
    readAt_unit_zero_unread harg2 zero2 inb_S16x3072_S16x3072_0_0 X1,
    readAt_unit_zero_unread harg3 zero2 inb_S1024x16_S1024x16_0_0 X2]

set_option maxHeartbeats 1000000 in
/-- The last point: only the third branch is taken; the output buffer ends at what it held plus the masked slabs' product. -/
theorem run_last (c : Dev nD) (i : grid0.Coords)
    (arg1 : Memref sig .tc .vmem S3072x1024 .f32) (harg1 : arg1.IsWhole)
    (arg2 : Memref sig .tc .vmem S16x3072 .f32) (harg2 : arg2.IsWhole)
    (arg3 : Memref sig .tc .vmem S1024x16 .f32) (harg3 : arg3.IsWhole)
    (h1 : ¬k0_cond1 i = 1#1) (h2 : ¬k0_cond2 i = 1#1) (h3 : k0_cond3 i = 1#1)
    (X0 : Vec F S3072x1024 .f32) (X1 : Vec F S16x3072 .f32) (X2 : Vec F S1024x16 .f32)
    (E : Set ℕ) (K : PUnit → sProp 𝕄) :
    iprop(owns (c : Thread nD τ) arg1 fullShare X0 ∗ owns (c : Thread nD τ) arg2 fullShare X1 ∗ owns (c : Thread nD τ) arg3 fullShare X2
        ∗ (iprop(owns (c : Thread nD τ) arg1 fullShare X0 ∗ owns (c : Thread nD τ) arg2 fullShare X1
              ∗ owns (c : Thread nD τ) arg3 fullShare (k0_pay3 X0 X1 X2)) -∗ K ⟨⟩))
      ⊢ wp frame (wpE (defs₀ (F := F)) Variants.none c none) E (cc0__mm_body i arg1 harg1 arg2 harg2 arg3 harg3) K := by
  simp only [cc0__mm_body_eq_skeleton]; unfold cc0__mm_body_skel
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  -- the case's hypotheses decide the three branches; the taken one loads the buffers and stores once
  sl_exec (disch := first | exact h1 | exact h2 | exact h3)
  sl_step
  iapply Hk
  isplitl [H0]
  · iexists _; isplitr; · ipureintro; exact harg1.read_unread _
    iexact H0
  isplitl [H1]
  · iexists _; isplitr; · ipureintro; exact harg2.read_unread _
    iexact H1
  iexists _; isplitr; swap
  · iexact H2
  ipureintro
  -- the one store covers the whole output buffer, so the buffer reads as its payload; each load through the
  -- whole-shape rectangle read what its buffer held
  refine (read_writes_unit_zero arg3.view (harg3.unread X2) zero2 inb_S1024x16_S1024x16_0_0 _).trans ?_
  rw [readAt_unit_zero_unread harg1 zero2 inb_S3072x1024_S3072x1024_0_0 X0,
    readAt_unit_zero_unread harg2 zero2 inb_S16x3072_S16x3072_0_0 X1,
    readAt_unit_zero_unread harg3 zero2 inb_S1024x16_S1024x16_0_0 X2]

end Cert.Kernel.Hand

end
-- ==== Proof.KMask.lean ====
/-
  The last point's mask. The last slab has 1696 rows (columns) inside the arrays; the body selects the loaded
  block where the row (column) number is below 1696 and the zero word elsewhere, and only then contracts. So its
  payload reads its two slab operands only on those rows (columns) (`pay3_congr`), and when the operands already
  hold the zero word on the tail the mask changes nothing and the payload is a middle point's (`pay3_eq_pay2`).
-/
import proofs.«152865_g9947144257871_rerun558fix_369_27_alg».proof.Proof.Gen.Kernel.Skeleton
import Idealize.ShloMosaic.Lib.ValueIdx
import Idealize.ShloMosaic.Lib.Pipeline.Value

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx
variable {F : FTy → Type} [FloatOps F]

/-- A row number below 3072, as a 32-bit word, is signed-below the word 1696 exactly when the number is below 1696:
    both words are below 2^31, so their signed readings are the numbers themselves. -/
private theorem slt_word (n : Nat) (hn : n < 3072) : (BitVec.ofNat 32 n).slt 1696#32 = decide (n < 1696) := by
  unfold BitVec.slt
  rw [BitVec.toInt_eq_toNat_cond, BitVec.toInt_eq_toNat_cond]
  simp only [BitVec.toNat_ofNat]
  have hm : n % 2 ^ 32 = n := Nat.mod_eq_of_lt (by omega)
  rw [hm]
  have h1 : (1696 : Nat) % 2 ^ 32 = 1696 := by decide
  rw [h1]
  have c1 : 2 * n < 2 ^ 32 := by omega
  have c2 : 2 * 1696 < 2 ^ 32 := by decide
  rw [if_pos c1, if_pos c2]
  congr 1
  apply propext
  omega

/-- The comparison bit of a row number below 3072 against 1696. -/
private theorem cmpi_word (n : Nat) (hn : n < 3072) :
    IntOp.cmpi .slt (BitVec.ofNat 32 n) 1696#32 = if n < 1696 then 1#1 else 0#1 := by
  show BitVec.ofBool ((BitVec.ofNat 32 n).slt 1696#32) = _
  rw [slt_word n hn]
  by_cases h : n < 1696
  · simp [h]
  · simp [h]

/-- The select on that bit is the `if` on the row number. -/
private theorem select_word {α : Type} (n : Nat) (hn : n < 3072) (a b : α) :
    Scalar.select (IntOp.cmpi .slt (BitVec.ofNat 32 n) 1696#32) a b = if n < 1696 then a else b := by
  rw [cmpi_word n hn]
  by_cases h : n < 1696
  · rw [if_pos h, if_pos h]; exact select_one a b
  · rw [if_neg h, if_neg h]; exact select_zero a b

/-- The masked (3072, 1024) operand: the block where the row number is below 1696, the zero word elsewhere. -/
def mask0 (X0 : Vec F S3072x1024 .f32) : FVec F S3072x1024 .f32 :=
  select (cmpi .slt (iota .tc S3072x1024 32 [0] iota_S3072x1024_d0_w32) (broadcast S3072x1024 1696#32))
    (shapeCast S3072x1024 X0 shapeCasts_S3072x1024_S3072x1024)
    (broadcast S3072x1024 (Scalar.ofBits .f32 0x00000000#32))

/-- The masked (16, 3072) operand: the block where the column number is below 1696, the zero word elsewhere. -/
def mask1 (X1 : Vec F S16x3072 .f32) : FVec F S16x3072 .f32 :=
  select (cmpi .slt (iota .tc S16x3072 32 [1] iota_S16x3072_d1_w32) (broadcast S16x3072 1696#32))
    (shapeCast S16x3072 X1 shapeCasts_S16x3072_S16x3072)
    (broadcast S16x3072 (Scalar.ofBits .f32 0x00000000#32))

theorem mask0_apply (X0 : Vec F S3072x1024 .f32) (j : S3072x1024.Idx) :
    mask0 X0 j = if (j 0).val < 1696 then X0 j else Scalar.ofBits .f32 0x00000000#32 := by
  unfold mask0
  rw [shapeCast_self]
  have hj : (j 0).val < 3072 := idx2_lt0 j
  show Scalar.select (IntOp.cmpi .slt (BitVec.ofNat 32 (0 * S3072x1024.size 0 + (j 0).val)) 1696#32) (X0 j) _ = _
  rw [Nat.zero_mul, Nat.zero_add]
  exact select_word _ hj _ _

theorem mask1_apply (X1 : Vec F S16x3072 .f32) (j : S16x3072.Idx) :
    mask1 X1 j = if (j 1).val < 1696 then X1 j else Scalar.ofBits .f32 0x00000000#32 := by
  unfold mask1
  rw [shapeCast_self]
  have hj : (j 1).val < 3072 := idx2_lt1 j
  show Scalar.select (IntOp.cmpi .slt (BitVec.ofNat 32 (0 * S16x3072.size 1 + (j 1).val)) 1696#32) (X1 j) _ = _
  rw [Nat.zero_mul, Nat.zero_add]
  exact select_word _ hj _ _

/-- The last point's payload over the two masked operands. -/
theorem pay3_eq_mask (X0 : Vec F S3072x1024 .f32) (X1 : Vec F S16x3072 .f32) (X2 : Vec F S1024x16 .f32) :
    k0_pay3 X0 X1 X2 = addf (shapeCast S1024x16 X2 shapeCasts_S1024x16_S1024x16)
      (matmul dot_S3072x1024_S16x3072_S1024x16_0_1_1_0_n_n none (mask0 X0) (mask1 X1) (constant S1024x16 .f32 0x00000000#32)) := rfl

/-- The last point's payload depends on its slab operands only on their first 1696 rows (columns). -/
theorem pay3_congr (X0 X0' : Vec F S3072x1024 .f32) (X1 X1' : Vec F S16x3072 .f32) (X2 : Vec F S1024x16 .f32)
    (h0 : ∀ j : S3072x1024.Idx, (j 0).val < 1696 → X0 j = X0' j)
    (h1 : ∀ j : S16x3072.Idx, (j 1).val < 1696 → X1 j = X1' j) :
    k0_pay3 X0 X1 X2 = k0_pay3 X0' X1' X2 := by
  have e0 : mask0 X0 = mask0 X0' := by
    funext j
    rw [mask0_apply, mask0_apply]
    by_cases h : (j 0).val < 1696
    · rw [if_pos h, if_pos h]; exact h0 j h
    · rw [if_neg h, if_neg h]
  have e1 : mask1 X1 = mask1 X1' := by
    funext j
    rw [mask1_apply, mask1_apply]
    by_cases h : (j 1).val < 1696
    · rw [if_pos h, if_pos h]; exact h1 j h
    · rw [if_neg h, if_neg h]
  rw [pay3_eq_mask, pay3_eq_mask, e0, e1]

/-- On slab operands that hold the zero word past row (column) 1696 the mask is the identity, and the last
    point's payload is a middle point's. -/
theorem pay3_eq_pay2 (X0 : Vec F S3072x1024 .f32) (X1 : Vec F S16x3072 .f32) (X2 : Vec F S1024x16 .f32)
    (h0 : ∀ j : S3072x1024.Idx, 1696 ≤ (j 0).val → X0 j = Scalar.ofBits .f32 0x00000000#32)
    (h1 : ∀ j : S16x3072.Idx, 1696 ≤ (j 1).val → X1 j = Scalar.ofBits .f32 0x00000000#32) :
    k0_pay3 X0 X1 X2 = k0_pay2 X2 X0 X1 := by
  have e0 : mask0 X0 = shapeCast S3072x1024 X0 shapeCasts_S3072x1024_S3072x1024 := by
    funext j
    rw [mask0_apply, shapeCast_self]
    by_cases h : (j 0).val < 1696
    · rw [if_pos h]
    · rw [if_neg h]; exact (h0 j (Nat.le_of_not_lt h)).symm
  have e1 : mask1 X1 = shapeCast S16x3072 X1 shapeCasts_S16x3072_S16x3072 := by
    funext j
    rw [mask1_apply, shapeCast_self]
    by_cases h : (j 1).val < 1696
    · rw [if_pos h]
    · rw [if_neg h]; exact (h1 j (Nat.le_of_not_lt h)).symm
  rw [pay3_eq_mask, e0, e1]
  rfl

end Cert.Kernel.Hand

end
-- ==== Proof.KFrame.lean ====
/-
  The frame of the K-blocked matmul: at every grid point the body, run on what the pipeline hands it, leaves what
  the proof data says; hence the whole program runs to the end, faults nowhere, and leaves `x` and `W` as they were.

  At a point the two input buffers hold their slabs on the rows (columns) inside the arrays and, past the arrays'
  end, words nothing names. Of the 33 points only the last has such a tail, and there the body masks it away
  before contracting; so what the body leaves in the output buffer is the same function of the slabs whatever
  the tail holds, and equals the proof data's `accAt`, which is written with the zero word there.
-/
import proofs.«152865_g9947144257871_rerun558fix_369_27_alg».proof.Proof.KData
import proofs.«152865_g9947144257871_rerun558fix_369_27_alg».proof.Proof.KRuns
import proofs.«152865_g9947144257871_rerun558fix_369_27_alg».proof.Proof.KMask
import proofs.«152865_g9947144257871_rerun558fix_369_27_alg».proof.Proof.Gen.Kernel.Points

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Closed facts over the 33 grid points -/

/-- The first branch is taken at point 0 only, -/
theorem hcond1 : ∀ t : Fin cfg0.N, k0_cond1 (grid0.coords t) = 1#1 ↔ t.val = 0 :=
  (by decide +kernel : ∀ t : Fin grid0.N, k0_cond1 (grid0.coords t) = 1#1 ↔ t.val = 0)
/-- the second at points 1 to 31, -/
theorem hcond2 : ∀ t : Fin cfg0.N, k0_cond2 (grid0.coords t) = 1#1 ↔ (0 < t.val ∧ t.val < 32) :=
  (by decide +kernel : ∀ t : Fin grid0.N, k0_cond2 (grid0.coords t) = 1#1 ↔ (0 < t.val ∧ t.val < 32))
/-- the third at point 32 only. -/
theorem hcond3 : ∀ t : Fin cfg0.N, k0_cond3 (grid0.coords t) = 1#1 ↔ t.val = 32 :=
  (by decide +kernel : ∀ t : Fin grid0.N, k0_cond3 (grid0.coords t) = 1#1 ↔ t.val = 32)

/-- Some branch stores into the output buffer at every point: the output window is never idle. -/
theorem idle2_at : ∀ t : Fin cfg0.N, cfg0.idle 2 (cfg0.grid.coords t) = false :=
  (by decide +kernel : ∀ t : Fin grid0.N, idle0 2 (grid0.coords t) = false)

/-- Slab `t` of the transposed `x` has 3072 rows inside the array, but for the last, which has 1696; all 1024 columns. -/
theorem xsize_0 : ∀ t : Fin cfg0.N, win0_0.xsize (grid0.coords t) 0 = (if t.val = 32 then 1696 else 3072)
    ∧ win0_0.xsize (grid0.coords t) 1 = 1024 :=
  (by decide +kernel : ∀ t : Fin grid0.N, win0_0.xsize (grid0.coords t) 0 = (if t.val = 32 then 1696 else 3072)
    ∧ win0_0.xsize (grid0.coords t) 1 = 1024)
/-- Slab `t` of the transposed `W`: all 16 rows; 3072 columns inside the array, but for the last, which has 1696. -/
theorem xsize_1 : ∀ t : Fin cfg0.N, win0_1.xsize (grid0.coords t) 0 = 16
    ∧ win0_1.xsize (grid0.coords t) 1 = (if t.val = 32 then 1696 else 3072) :=
  (by decide +kernel : ∀ t : Fin grid0.N, win0_1.xsize (grid0.coords t) 0 = 16
    ∧ win0_1.xsize (grid0.coords t) 1 = (if t.val = 32 then 1696 else 3072))

/-! ## What the body finds in the three buffers -/

/-- Both inputs are fetched at every point: the buffer holds the slab on the part inside the array, `d` elsewhere. -/
theorem before_0 (c : Dev nD) (t : Fin cfg0.N) (d) :
    (dats m 0 c).before 0 t d = win0_0.fill (grid0.coords t) d (iblk m c 0 t) := by
  rw [Dat.before_fetched _ 0 t (fetch0_0 t)]
  unfold Dat.fetched Dat.blockOf iblk
  rw [A_eq]
theorem before_1 (c : Dev nD) (t : Fin cfg0.N) (d) :
    (dats m 0 c).before 1 t d = win0_1.fill (grid0.coords t) d (iblk m c 1 t) := by
  rw [Dat.before_fetched _ 1 t (fetch0_1 t)]
  unfold Dat.fetched Dat.blockOf iblk
  rw [A_eq]

/-- At the first point the output buffer holds anything; -/
theorem before_2_first (c : Dev nD) (t : Fin cfg0.N) (h : t.val = 0) (d) : (dats m 0 c).before 2 t d = d :=
  Dat.before_out_reset _ 2 rfl t (.inl h) d

/-- at a later point what the point before left (the block is written back after the last point only). -/
theorem before_2_later (c : Dev nD) (t : Fin cfg0.N) (h : t.val ≠ 0) (d) :
    (dats m 0 c).before 2 t d = accAt m c (t.val - 1) (Nat.lt_of_le_of_lt (Nat.sub_le _ _) t.isLt) := by
  have hN : t.val < 33 := lt_of_lt_of_eq t.isLt (show cfg0.N = 33 from N_0)
  rw [Dat.before_of_pos _ 2 t h ((cfg0.win 2).fetch_out rfl t),
    if_neg (fun hf => by have := (flush0_2 _).mp hf; dsimp only at this; omega)]
  unfold Dat.left
  rw [idle2_at]
  dsimp only
  unfold Dat.kept
  rw [Pipeline.fill_of_clip_none (cfg := cfg0) 2 _ (fun _ => rfl) d ((dats m 0 c).after 2 _), Window.fill_cut, after_2]

/-! ## Where nothing is cut the filler does not show -/

theorem moved_0 (t : Fin cfg0.N) (j : S3072x1024.Idx) (hj : t.val = 32 → (j 0).val < 1696) :
    win0_0.moved (grid0.coords t) j = true := by
  refine (win0_0.moved_iff _ j).mpr fun a => ?_
  have hx := xsize_0 t
  have h0 : (j 0).val < 3072 := (j 0).isLt
  have h1 : (j 1).val < 1024 := (j 1).isLt
  match a with
  | ⟨0, _⟩ =>
    show (j 0).val < win0_0.xsize (grid0.coords t) 0
    rw [hx.1]; split
    · exact hj ‹_›
    · exact h0
  | ⟨1, _⟩ =>
    show (j 1).val < win0_0.xsize (grid0.coords t) 1
    rw [hx.2]; exact h1

theorem moved_1 (t : Fin cfg0.N) (j : S16x3072.Idx) (hj : t.val = 32 → (j 1).val < 1696) :
    win0_1.moved (grid0.coords t) j = true := by
  refine (win0_1.moved_iff _ j).mpr fun a => ?_
  have hx := xsize_1 t
  have h0 : (j 0).val < 16 := (j 0).isLt
  have h1 : (j 1).val < 3072 := (j 1).isLt
  match a with
  | ⟨0, _⟩ =>
    show (j 0).val < win0_1.xsize (grid0.coords t) 0
    rw [hx.1]; exact h0
  | ⟨1, _⟩ =>
    show (j 1).val < win0_1.xsize (grid0.coords t) 1
    rw [hx.2]; split
    · exact hj ‹_›
    · exact h1

theorem fill0_at {α : Type} (t : Fin cfg0.N) (d d' : S3072x1024.Idx → α) (g) (j : S3072x1024.Idx)
    (hj : t.val = 32 → (j 0).val < 1696) :
    win0_0.fill (grid0.coords t) d g j = win0_0.fill (grid0.coords t) d' g j := by
  have hm := moved_0 t j hj
  unfold Window.fill; rw [dif_pos hm, dif_pos hm]

theorem fill1_at {α : Type} (t : Fin cfg0.N) (d d' : S16x3072.Idx → α) (g) (j : S16x3072.Idx)
    (hj : t.val = 32 → (j 1).val < 1696) :
    win0_1.fill (grid0.coords t) d g j = win0_1.fill (grid0.coords t) d' g j := by
  have hm := moved_1 t j hj
  unfold Window.fill; rw [dif_pos hm, dif_pos hm]

/-! ## What the body leaves in the output buffer is `accAt` -/

/-- The first point: the slab product, whatever fills the (empty) tail. -/
theorem leaves_first (c : Dev nD) (t : Fin cfg0.N) (h : t.val = 0) (d0 d1) :
    k0_pay1 (win0_0.fill (grid0.coords t) d0 (iblk m c 0 t)) (win0_1.fill (grid0.coords t) d1 (iblk m c 1 t))
      = accAt m c t.val t.isLt := by
  obtain ⟨n, hn⟩ := t
  dsimp only at h; subst h
  rw [accAt_zero]; unfold xin win
  rw [show win0_0.fill (grid0.coords ⟨0, hn⟩) d0 (iblk m c 0 ⟨0, hn⟩) = win0_0.fill (grid0.coords ⟨0, hn⟩) (fun _ => zw) (iblk m c 0 ⟨0, hn⟩) from
      funext fun j => fill0_at _ _ _ _ j (fun h => by exfalso; dsimp only at h; omega),
    show win0_1.fill (grid0.coords ⟨0, hn⟩) d1 (iblk m c 1 ⟨0, hn⟩) = win0_1.fill (grid0.coords ⟨0, hn⟩) (fun _ => zw) (iblk m c 1 ⟨0, hn⟩) from
      funext fun j => fill1_at _ _ _ _ j (fun h => by exfalso; dsimp only at h; omega)]

/-- A middle point: what the point before left plus the slab product. -/
theorem leaves_mid (c : Dev nD) (t : Fin cfg0.N) (h0 : t.val ≠ 0) (h32 : t.val ≠ 32) (d0 d1) :
    k0_pay2 (accAt m c (t.val - 1) (Nat.lt_of_le_of_lt (Nat.sub_le _ _) t.isLt))
        (win0_0.fill (grid0.coords t) d0 (iblk m c 0 t)) (win0_1.fill (grid0.coords t) d1 (iblk m c 1 t))
      = accAt m c t.val t.isLt := by
  obtain ⟨n, hn⟩ := t
  cases n with
  | zero => exact absurd rfl h0
  | succ n =>
    dsimp only at h32 ⊢
    rw [accAt_mid m c n hn h32]; unfold xin win
    rw [show win0_0.fill (grid0.coords ⟨n + 1, hn⟩) d0 (iblk m c 0 ⟨n + 1, hn⟩) = win0_0.fill (grid0.coords ⟨n + 1, hn⟩) (fun _ => zw) (iblk m c 0 ⟨n + 1, hn⟩) from
        funext fun j => fill0_at _ _ _ _ j (fun h => absurd h h32),
      show win0_1.fill (grid0.coords ⟨n + 1, hn⟩) d1 (iblk m c 1 ⟨n + 1, hn⟩) = win0_1.fill (grid0.coords ⟨n + 1, hn⟩) (fun _ => zw) (iblk m c 1 ⟨n + 1, hn⟩) from
        funext fun j => fill1_at _ _ _ _ j (fun h => absurd h h32)]
    rfl

/-- The last point: the masked slabs' product does not read the tails. -/
theorem leaves_last (c : Dev nD) (t : Fin cfg0.N) (h32 : t.val = 32) (d0 d1) :
    k0_pay3 (win0_0.fill (grid0.coords t) d0 (iblk m c 0 t)) (win0_1.fill (grid0.coords t) d1 (iblk m c 1 t))
        (accAt m c (t.val - 1) (Nat.lt_of_le_of_lt (Nat.sub_le _ _) t.isLt))
      = accAt m c t.val t.isLt := by
  obtain ⟨n, hn⟩ := t
  cases n with
  | zero => exfalso; dsimp only at h32; omega
  | succ n =>
    dsimp only at h32 ⊢
    rw [accAt_last m c n hn h32]; unfold xin win
    exact pay3_congr _ _ _ _ _ (fun j hj => fill0_at _ _ _ _ j (fun _ => hj)) (fun j hj => fill1_at _ _ _ _ j (fun _ => hj))

/-! ## The body obligation, at a generic point -/

/-- What the body is called with at point `t`: the invariant, nothing owed, and the three current staging buffers
    at what the pipeline left in them; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: the two input buffers at their slabs on the part inside the arrays (anything past it),
    the output's at `accAt t`. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (iblk m c 0 t)))
    ∗ (∃ d, owns (c : Thread nD τ) (st0_1 t) fullShare (win0_1.fill (grid0.coords t) d (iblk m c 1 t)))
    ∗ owns (c : Thread nD τ) (st0_2 t) fullShare (accAt m c t.val t.isLt))

set_option maxHeartbeats 800000 in
/-- The body at any point: which branch runs is decided by the point's number; the case's run applies to what the
    three buffers hold; what it leaves in the output buffer is `accAt` (the `leaves_…` equations). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  have hN : t.val < 33 := lt_of_lt_of_eq t.isLt (show cfg0.N = 33 from N_0)
  iintro ⟨HΦ, Ho, ⟨%d0, H0⟩, ⟨%d1, H1⟩, ⟨%d2, H2⟩⟩
  rw [before_0 m c t d0, before_1 m c t d1]
  by_cases h0 : t.val = 0
  · rw [before_2_first m c t h0 d2]
    iapply (run_first (F := F) c (grid0.coords t) _ _ _ _ _ _ ((hcond1 t).mpr h0)
      (fun h => by have := (hcond2 t).mp h; omega) (fun h => by have := (hcond3 t).mp h; omega)
      (win0_0.fill (grid0.coords t) d0 (iblk m c 0 t)) (win0_1.fill (grid0.coords t) d1 (iblk m c 1 t)) d2 Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexists d0; iexact H0
    isplitl [H1]; · iexists d1; iexact H1
    rw [← leaves_first m c t h0 d0 d1]
    iexact H2
  · rw [before_2_later m c t h0 d2]
    by_cases h32 : t.val = 32
    ·
      iapply (run_last (F := F) c (grid0.coords t) _ _ _ _ _ _
        (fun h => by have := (hcond1 t).mp h; omega) (fun h => by have := (hcond2 t).mp h; omega) ((hcond3 t).mpr h32)
        (win0_0.fill (grid0.coords t) d0 (iblk m c 0 t)) (win0_1.fill (grid0.coords t) d1 (iblk m c 1 t)) _ Set.univ _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexists d0; iexact H0
      isplitl [H1]; · iexists d1; iexact H1
      rw [← leaves_last m c t h32 d0 d1]
      iexact H2
    ·
      iapply (run_mid (F := F) c (grid0.coords t) _ _ _ _ _ _
        (fun h => by have := (hcond1 t).mp h; omega) ((hcond2 t).mpr ⟨by omega, by omega⟩) (fun h => by have := (hcond3 t).mp h; omega)
        (win0_0.fill (grid0.coords t) d0 (iblk m c 0 t)) (win0_1.fill (grid0.coords t) d1 (iblk m c 1 t)) _ Set.univ _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexists d0; iexact H0
      isplitl [H1]; · iexists d1; iexact H1
      rw [← leaves_mid m c t h0 h32 d0 d1]
      iexact H2

/-- The inputs' buffers are handed back as they were found: on the part inside the array the slab (the three
    spellings of the window that the obligation's statement may show). -/
theorem back_0 (c : Dev nD) (t : Fin cfg0.N) (d) :
    (win0 0).fill (grid0.coords t) d ((win0 0).cut (grid0.coords t) ((dats m 0 c).after 0 t))
      = win0_0.fill (grid0.coords t) d (iblk m c 0 t) := by
  rw [after_0]; unfold xin
  exact congrArg (win0_0.fill (grid0.coords t) d) (win0_0.cut_fill _ _ _)
theorem back_1 (c : Dev nD) (t : Fin cfg0.N) (d) :
    (win0 1).fill (grid0.coords t) d ((win0 1).cut (grid0.coords t) ((dats m 0 c).after 1 t))
      = win0_1.fill (grid0.coords t) d (iblk m c 1 t) := by
  rw [after_1]; unfold win
  exact congrArg (win0_1.fill (grid0.coords t) d) (win0_1.cut_fill _ _ _)
theorem idle2_at' (t : Fin cfg0.N) : idle0 2 (grid0.coords t) = false := idle2_at t

end Cert.Kernel.Hand

end
-- ==== Proof.KRun.lean ====
/-
  The frame run of the K-blocked matmul: the library's body obligation from the body's run at a generic point,
  the pipeline's run over all 33 points, and the frame — the program terminates, faults nowhere, and leaves
  `x` and `W` as they were.
-/
import proofs.«152865_g9947144257871_rerun558fix_369_27_alg».proof.Proof.KFrame

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The library's body obligation, each input window stated on the part its transfers move. -/
theorem body_obligation (c : Dev nD) : BodyObligationLoose (dats (F := F) m 0 c) (defs₀ (F := F)) Variants.none () Set.univ := fun t => by
  rw [bigSep_W0, bigSep_W0]
  simp only [after_2]
  rw [idle2_at' t]
  simp only [back_0 m c t, back_1 m c t]
  exact sound_body m c t

/-! ## The run and the frame -/

set_option backward.isDefEq.respectTransparency.types false in
/-- For any values, from any memory with zero counters: every weakly fair execution of the program terminates,
    and every final state has every array of the pipeline at what the library computes from the proof data and
    every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the program runs to the end, faults nowhere, and leaves `x` and `W` unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KIData.lean ====
/-
  The staged contents and the running product of the K-blocked matmul, as data for the pipeline's frame run.

  The kernel walks the contraction axis (length 100000) in 33 slabs of 3072; slab `t` of the transposed
  `x` is a (3072, 1024) block and slab `t` of the transposed `W` a (16, 3072) block. Slab 32 holds only
  1696 rows (columns) of the arrays; the rest of its staging buffer holds words nothing names. Here each staged
  block is written down with the ZERO word on that tail (`xin`, `win`): the last grid point masks the tail to
  zero before it contracts, so what it computes does not depend on the words there, and with the zero filler the
  masked and the unmasked contraction agree. `accAt n` is the (1024, 16) output block after grid point `n`:
  the product of slab 0 at the first point, then the previous block plus the product of slab `n`.
-/
import proofs.«152865_g9947144257871_rerun558fix_369_27_alg».proof.Proof.Gen.KernelIdeal.Frame
import proofs.«152865_g9947144257871_rerun558fix_369_27_alg».proof.Proof.Gen.KernelIdeal.Skeleton

noncomputable section

namespace Cert.KernelIdeal.Hand

open Cert.KernelIdeal Cert.KernelIdeal.Gen
open Idealize.ShloMosaic Idealize.ShloMosaic.TcCoe
open Idealize.SL Idealize.SL.RA Idealize.SL.BI Idealize.SL.Sem
open Idealize.ShloMosaic.Pipeline (Dat Cfg Window)

variable {F : FTy → Type} [FloatOps F]

variable (m : (ℓ : Loc nD τ sig) → Buf (Elt F) ℓ)

/-- The zero word of f32: what the last point's mask writes on the tail, and the filler chosen here. -/
abbrev zw : F .f32 := Scalar.ofBits .f32 0x00000000#32

/-- Slab `t` of the transposed `x` as staged: the rows inside the array, the zero word on the rows past its end. -/
def xin (c : Dev nD) (t : Fin cfg0.N) : Vec F S3072x1024 .f32 :=
  win0_0.fill (grid0.coords t) (fun _ => zw) (iblk m c 0 t)

/-- Slab `t` of the transposed `W` as staged: the columns inside the array, the zero word past its end. -/
def win (c : Dev nD) (t : Fin cfg0.N) : Vec F S16x3072 .f32 :=
  win0_1.fill (grid0.coords t) (fun _ => zw) (iblk m c 1 t)

/-- The output block after grid point `n`: slab 0's product at the first point; at a later point the block the
    point before left plus slab `n`'s product — at the last point (32) with both slabs masked to their first 1696
    rows (columns) first. -/
def accAt (c : Dev nD) : (n : ℕ) → n < cfg0.N → Vec F S1024x16 .f32
  | 0, hn => k0_pay1 (xin m c ⟨0, hn⟩) (win m c ⟨0, hn⟩)
  | n + 1, hn =>
    if n + 1 = 32 then k0_pay3 (xin m c ⟨n + 1, hn⟩) (win m c ⟨n + 1, hn⟩) (accAt c n (Nat.lt_of_succ_lt hn))
    else k0_pay2 (accAt c n (Nat.lt_of_succ_lt hn)) (xin m c ⟨n + 1, hn⟩) (win m c ⟨n + 1, hn⟩)

theorem accAt_zero (c : Dev nD) (hn : 0 < cfg0.N) :
    accAt m c 0 hn = k0_pay1 (xin m c ⟨0, hn⟩) (win m c ⟨0, hn⟩) := rfl

theorem accAt_last (c : Dev nD) (n : ℕ) (hn : n + 1 < cfg0.N) (h : n + 1 = 32) :
    accAt m c (n + 1) hn = k0_pay3 (xin m c ⟨n + 1, hn⟩) (win m c ⟨n + 1, hn⟩) (accAt m c n (Nat.lt_of_succ_lt hn)) :=
  (if_pos h).trans rfl

theorem accAt_mid (c : Dev nD) (n : ℕ) (hn : n + 1 < cfg0.N) (h : ¬n + 1 = 32) :
    accAt m c (n + 1) hn = k0_pay2 (accAt m c n (Nat.lt_of_succ_lt hn)) (xin m c ⟨n + 1, hn⟩) (win m c ⟨n + 1, hn⟩) :=
  (if_neg h).trans rfl

/-- The proof data of the one pipeline on core `c`: the arrays as the region finds them; after the body at point
    `t` the two input buffers at their slabs (zero past the arrays' end) and the output's at `accAt t`; the class's
    invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xin m c t
    | ⟨1, _⟩ => win m c t
    | ⟨2, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = xin m c t := by dsimp only [dats]
theorem after_1 (c : Dev nD) (t : Fin cfg0.N) : (dats m 0 c).after 1 t = win m c t := by dsimp only [dats]
theorem after_2 (c : Dev nD) (t : Fin cfg0.N) : (dats m 0 c).after 2 t = accAt m c t.val t.isLt := by dsimp only [dats]

end Cert.KernelIdeal.Hand

end
-- ==== Proof.KIRuns.lean ====
/-
  The kernel body run on whole staging buffers, one theorem per control case. The body has three `scf.if`s on the
  grid coordinate, exactly one of which is taken at a point: the first point stores the slab product; a middle point
  loads the output block, adds the slab product and stores; the last point does the same with both slabs masked.
  In each case the two input buffers are only read and the output buffer ends holding the case's payload of what
  the three buffers held.
-/
import proofs.«152865_g9947144257871_rerun558fix_369_27_alg».proof.Proof.Gen.KernelIdeal.Skeleton
import proofs.«152865_g9947144257871_rerun558fix_369_27_alg».proof.Proof.Gen.KernelIdeal.Launch
import Idealize.ShloMosaic.Lib.Pipeline.FrameBody
import Idealize.ShloMosaic.Lib.Pipeline.Value
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The rank-2 zero offsets, however spelt. -/
private theorem zero2 : (![0, 0] : Fin 2 → Nat) = fun _ => 0 := funext fun a => by fin_cases a <;> rfl

/-- One store through the whole-shape rectangle at zero offsets leaves the buffer reading its payload, whatever the
    buffer held before. -/
private theorem read_writes_unit_zero {sig' : RefSig} {κ : Kind} {sp : Space} {S : Shape} {e : EltTy} {Val : EltTy → Type}
    [∀ e, Nonempty (Val e)] (v : View sig' κ sp S e) (f : v.ty.Contents Val) {off : Fin S.rank → Nat}
    (h : off = fun _ => 0) (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h]

/-- A load through the whole-shape rectangle at zero offsets of a whole memref held at the contents that read `X`
    reads `X`. -/
private theorem readAt_unit_zero_unread {sig' : RefSig} {κ : Kind} {sp : Space} {S : Shape} {e : EltTy} {Val : EltTy → Type}
    {m : Memref sig' κ sp S e} (hm : m.IsWhole) {off : Fin S.rank → Nat}
    (h : off = fun _ => 0) (inb : ∀ a, off a + S.size a ≤ S.size a) (X : S.Idx → Val e) :
    View.readAt Val m.view (Rect.unit off S.size inb).toLoadRect (hm.unread X) = X := by
  rw [View.readAt_eq_ld, hm.read_unread, View.ld_unit_zero h]

set_option maxHeartbeats 1000000 in
/-- The first point: only the first branch is taken; the output buffer ends at the product of the two staged slabs. -/
theorem run_first (c : Dev nD) (i : grid0.Coords)
    (arg1 : Memref sig .tc .vmem S3072x1024 .f32) (harg1 : arg1.IsWhole)
    (arg2 : Memref sig .tc .vmem S16x3072 .f32) (harg2 : arg2.IsWhole)
    (arg3 : Memref sig .tc .vmem S1024x16 .f32) (harg3 : arg3.IsWhole)
    (h1 : k0_cond1 i = 1#1) (h2 : ¬k0_cond2 i = 1#1) (h3 : ¬k0_cond3 i = 1#1)
    (X0 : Vec F S3072x1024 .f32) (X1 : Vec F S16x3072 .f32) (X2 : Vec F S1024x16 .f32)
    (E : Set ℕ) (K : PUnit → sProp 𝕄) :
    iprop(owns (c : Thread nD τ) arg1 fullShare X0 ∗ owns (c : Thread nD τ) arg2 fullShare X1 ∗ owns (c : Thread nD τ) arg3 fullShare X2
        ∗ (iprop(owns (c : Thread nD τ) arg1 fullShare X0 ∗ owns (c : Thread nD τ) arg2 fullShare X1
              ∗ owns (c : Thread nD τ) arg3 fullShare (k0_pay1 X0 X1)) -∗ K ⟨⟩))
      ⊢ wp frame (wpE (defs₀ (F := F)) Variants.none c none) E (cc0__mm_body i arg1 harg1 arg2 harg2 arg3 harg3) K := by
  simp only [cc0__mm_body_eq_skeleton]; unfold cc0__mm_body_skel
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  -- the case's hypotheses decide the three branches; the taken one loads the buffers and stores once
  sl_exec (disch := first | exact h1 | exact h2 | exact h3)
  sl_step
  iapply Hk
  isplitl [H0]
  · iexists _; isplitr; · ipureintro; exact harg1.read_unread _
    iexact H0
  isplitl [H1]
  · iexists _; isplitr; · ipureintro; exact harg2.read_unread _
    iexact H1
  iexists _; isplitr; swap
  · iexact H2
  ipureintro
  -- the one store covers the whole output buffer, so the buffer reads as its payload; each load through the
  -- whole-shape rectangle read what its buffer held
  refine (read_writes_unit_zero arg3.view (harg3.unread X2) zero2 inb_S1024x16_S1024x16_0_0 _).trans ?_
  rw [readAt_unit_zero_unread harg1 zero2 inb_S3072x1024_S3072x1024_0_0 X0,
    readAt_unit_zero_unread harg2 zero2 inb_S16x3072_S16x3072_0_0 X1]

set_option maxHeartbeats 1000000 in
/-- A middle point: only the second branch is taken; the output buffer ends at what it held plus the slabs' product. -/
theorem run_mid (c : Dev nD) (i : grid0.Coords)
    (arg1 : Memref sig .tc .vmem S3072x1024 .f32) (harg1 : arg1.IsWhole)
    (arg2 : Memref sig .tc .vmem S16x3072 .f32) (harg2 : arg2.IsWhole)
    (arg3 : Memref sig .tc .vmem S1024x16 .f32) (harg3 : arg3.IsWhole)
    (h1 : ¬k0_cond1 i = 1#1) (h2 : k0_cond2 i = 1#1) (h3 : ¬k0_cond3 i = 1#1)
    (X0 : Vec F S3072x1024 .f32) (X1 : Vec F S16x3072 .f32) (X2 : Vec F S1024x16 .f32)
    (E : Set ℕ) (K : PUnit → sProp 𝕄) :
    iprop(owns (c : Thread nD τ) arg1 fullShare X0 ∗ owns (c : Thread nD τ) arg2 fullShare X1 ∗ owns (c : Thread nD τ) arg3 fullShare X2
        ∗ (iprop(owns (c : Thread nD τ) arg1 fullShare X0 ∗ owns (c : Thread nD τ) arg2 fullShare X1
              ∗ owns (c : Thread nD τ) arg3 fullShare (k0_pay2 X2 X0 X1)) -∗ K ⟨⟩))
      ⊢ wp frame (wpE (defs₀ (F := F)) Variants.none c none) E (cc0__mm_body i arg1 harg1 arg2 harg2 arg3 harg3) K := by
  simp only [cc0__mm_body_eq_skeleton]; unfold cc0__mm_body_skel
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  -- the case's hypotheses decide the three branches; the taken one loads the buffers and stores once
  sl_exec (disch := first | exact h1 | exact h2 | exact h3)
  sl_step
  iapply Hk
  isplitl [H0]
  · iexists _; isplitr; · ipureintro; exact harg1.read_unread _
    iexact H0
  isplitl [H1]
  · iexists _; isplitr; · ipureintro; exact harg2.read_unread _
    iexact H1
  iexists _; isplitr; swap
  · iexact H2
  ipureintro
  -- the one store covers the whole output buffer, so the buffer reads as its payload; each load through the
  -- whole-shape rectangle read what its buffer held
  refine (read_writes_unit_zero arg3.view (harg3.unread X2) zero2 inb_S1024x16_S1024x16_0_0 _).trans ?_
  rw [readAt_unit_zero_unread harg1 zero2 inb_S3072x1024_S3072x1024_0_0 X0,
    readAt_unit_zero_unread harg2 zero2 inb_S16x3072_S16x3072_0_0 X1,
    readAt_unit_zero_unread harg3 zero2 inb_S1024x16_S1024x16_0_0 X2]

set_option maxHeartbeats 1000000 in
/-- The last point: only the third branch is taken; the output buffer ends at what it held plus the masked slabs' product. -/
theorem run_last (c : Dev nD) (i : grid0.Coords)
    (arg1 : Memref sig .tc .vmem S3072x1024 .f32) (harg1 : arg1.IsWhole)
    (arg2 : Memref sig .tc .vmem S16x3072 .f32) (harg2 : arg2.IsWhole)
    (arg3 : Memref sig .tc .vmem S1024x16 .f32) (harg3 : arg3.IsWhole)
    (h1 : ¬k0_cond1 i = 1#1) (h2 : ¬k0_cond2 i = 1#1) (h3 : k0_cond3 i = 1#1)
    (X0 : Vec F S3072x1024 .f32) (X1 : Vec F S16x3072 .f32) (X2 : Vec F S1024x16 .f32)
    (E : Set ℕ) (K : PUnit → sProp 𝕄) :
    iprop(owns (c : Thread nD τ) arg1 fullShare X0 ∗ owns (c : Thread nD τ) arg2 fullShare X1 ∗ owns (c : Thread nD τ) arg3 fullShare X2
        ∗ (iprop(owns (c : Thread nD τ) arg1 fullShare X0 ∗ owns (c : Thread nD τ) arg2 fullShare X1
              ∗ owns (c : Thread nD τ) arg3 fullShare (k0_pay3 X0 X1 X2)) -∗ K ⟨⟩))
      ⊢ wp frame (wpE (defs₀ (F := F)) Variants.none c none) E (cc0__mm_body i arg1 harg1 arg2 harg2 arg3 harg3) K := by
  simp only [cc0__mm_body_eq_skeleton]; unfold cc0__mm_body_skel
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  -- the case's hypotheses decide the three branches; the taken one loads the buffers and stores once
  sl_exec (disch := first | exact h1 | exact h2 | exact h3)
  sl_step
  iapply Hk
  isplitl [H0]
  · iexists _; isplitr; · ipureintro; exact harg1.read_unread _
    iexact H0
  isplitl [H1]
  · iexists _; isplitr; · ipureintro; exact harg2.read_unread _
    iexact H1
  iexists _; isplitr; swap
  · iexact H2
  ipureintro
  -- the one store covers the whole output buffer, so the buffer reads as its payload; each load through the
  -- whole-shape rectangle read what its buffer held
  refine (read_writes_unit_zero arg3.view (harg3.unread X2) zero2 inb_S1024x16_S1024x16_0_0 _).trans ?_
  rw [readAt_unit_zero_unread harg1 zero2 inb_S3072x1024_S3072x1024_0_0 X0,
    readAt_unit_zero_unread harg2 zero2 inb_S16x3072_S16x3072_0_0 X1,
    readAt_unit_zero_unread harg3 zero2 inb_S1024x16_S1024x16_0_0 X2]

end Cert.KernelIdeal.Hand

end
-- ==== Proof.KIMask.lean ====
/-
  The last point's mask. The last slab has 1696 rows (columns) inside the arrays; the body selects the loaded
  block where the row (column) number is below 1696 and the zero word elsewhere, and only then contracts. So its
  payload reads its two slab operands only on those rows (columns) (`pay3_congr`), and when the operands already
  hold the zero word on the tail the mask changes nothing and the payload is a middle point's (`pay3_eq_pay2`).
-/
import proofs.«152865_g9947144257871_rerun558fix_369_27_alg».proof.Proof.Gen.KernelIdeal.Skeleton
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx
variable {F : FTy → Type} [FloatOps F]

/-- A row number below 3072, as a 32-bit word, is signed-below the word 1696 exactly when the number is below 1696:
    both words are below 2^31, so their signed readings are the numbers themselves. -/
private theorem slt_word (n : Nat) (hn : n < 3072) : (BitVec.ofNat 32 n).slt 1696#32 = decide (n < 1696) := by
  unfold BitVec.slt
  rw [BitVec.toInt_eq_toNat_cond, BitVec.toInt_eq_toNat_cond]
  simp only [BitVec.toNat_ofNat]
  have hm : n % 2 ^ 32 = n := Nat.mod_eq_of_lt (by omega)
  rw [hm]
  have h1 : (1696 : Nat) % 2 ^ 32 = 1696 := by decide
  rw [h1]
  have c1 : 2 * n < 2 ^ 32 := by omega
  have c2 : 2 * 1696 < 2 ^ 32 := by decide
  rw [if_pos c1, if_pos c2]
  congr 1
  apply propext
  omega

/-- The comparison bit of a row number below 3072 against 1696. -/
private theorem cmpi_word (n : Nat) (hn : n < 3072) :
    IntOp.cmpi .slt (BitVec.ofNat 32 n) 1696#32 = if n < 1696 then 1#1 else 0#1 := by
  show BitVec.ofBool ((BitVec.ofNat 32 n).slt 1696#32) = _
  rw [slt_word n hn]
  by_cases h : n < 1696
  · simp [h]
  · simp [h]

/-- The select on that bit is the `if` on the row number. -/
private theorem select_word {α : Type} (n : Nat) (hn : n < 3072) (a b : α) :
    Scalar.select (IntOp.cmpi .slt (BitVec.ofNat 32 n) 1696#32) a b = if n < 1696 then a else b := by
  rw [cmpi_word n hn]
  by_cases h : n < 1696
  · rw [if_pos h, if_pos h]; exact select_one a b
  · rw [if_neg h, if_neg h]; exact select_zero a b

/-- The masked (3072, 1024) operand: the block where the row number is below 1696, the zero word elsewhere. -/
def mask0 (X0 : Vec F S3072x1024 .f32) : FVec F S3072x1024 .f32 :=
  select (cmpi .slt (iota .tc S3072x1024 32 [0] iota_S3072x1024_d0_w32) (broadcast S3072x1024 1696#32))
    (shapeCast S3072x1024 X0 shapeCasts_S3072x1024_S3072x1024)
    (broadcast S3072x1024 (Scalar.ofBits .f32 0x00000000#32))

/-- The masked (16, 3072) operand: the block where the column number is below 1696, the zero word elsewhere. -/
def mask1 (X1 : Vec F S16x3072 .f32) : FVec F S16x3072 .f32 :=
  select (cmpi .slt (iota .tc S16x3072 32 [1] iota_S16x3072_d1_w32) (broadcast S16x3072 1696#32))
    (shapeCast S16x3072 X1 shapeCasts_S16x3072_S16x3072)
    (broadcast S16x3072 (Scalar.ofBits .f32 0x00000000#32))

theorem mask0_apply (X0 : Vec F S3072x1024 .f32) (j : S3072x1024.Idx) :
    mask0 X0 j = if (j 0).val < 1696 then X0 j else Scalar.ofBits .f32 0x00000000#32 := by
  unfold mask0
  rw [shapeCast_self]
  have hj : (j 0).val < 3072 := idx2_lt0 j
  show Scalar.select (IntOp.cmpi .slt (BitVec.ofNat 32 (0 * S3072x1024.size 0 + (j 0).val)) 1696#32) (X0 j) _ = _
  rw [Nat.zero_mul, Nat.zero_add]
  exact select_word _ hj _ _

theorem mask1_apply (X1 : Vec F S16x3072 .f32) (j : S16x3072.Idx) :
    mask1 X1 j = if (j 1).val < 1696 then X1 j else Scalar.ofBits .f32 0x00000000#32 := by
  unfold mask1
  rw [shapeCast_self]
  have hj : (j 1).val < 3072 := idx2_lt1 j
  show Scalar.select (IntOp.cmpi .slt (BitVec.ofNat 32 (0 * S16x3072.size 1 + (j 1).val)) 1696#32) (X1 j) _ = _
  rw [Nat.zero_mul, Nat.zero_add]
  exact select_word _ hj _ _

/-- The last point's payload over the two masked operands. -/
theorem pay3_eq_mask (X0 : Vec F S3072x1024 .f32) (X1 : Vec F S16x3072 .f32) (X2 : Vec F S1024x16 .f32) :
    k0_pay3 X0 X1 X2 = addf (shapeCast S1024x16 X2 shapeCasts_S1024x16_S1024x16)
      (matmul dot_S3072x1024_S16x3072_S1024x16_0_1_1_0_n_n none (mask0 X0) (mask1 X1) (constant S1024x16 .f32 0x00000000#32)) := rfl

/-- The last point's payload depends on its slab operands only on their first 1696 rows (columns). -/
theorem pay3_congr (X0 X0' : Vec F S3072x1024 .f32) (X1 X1' : Vec F S16x3072 .f32) (X2 : Vec F S1024x16 .f32)
    (h0 : ∀ j : S3072x1024.Idx, (j 0).val < 1696 → X0 j = X0' j)
    (h1 : ∀ j : S16x3072.Idx, (j 1).val < 1696 → X1 j = X1' j) :
    k0_pay3 X0 X1 X2 = k0_pay3 X0' X1' X2 := by
  have e0 : mask0 X0 = mask0 X0' := by
    funext j
    rw [mask0_apply, mask0_apply]
    by_cases h : (j 0).val < 1696
    · rw [if_pos h, if_pos h]; exact h0 j h
    · rw [if_neg h, if_neg h]
  have e1 : mask1 X1 = mask1 X1' := by
    funext j
    rw [mask1_apply, mask1_apply]
    by_cases h : (j 1).val < 1696
    · rw [if_pos h, if_pos h]; exact h1 j h
    · rw [if_neg h, if_neg h]
  rw [pay3_eq_mask, pay3_eq_mask, e0, e1]

/-- On slab operands that hold the zero word past row (column) 1696 the mask is the identity, and the last
    point's payload is a middle point's. -/
theorem pay3_eq_pay2 (X0 : Vec F S3072x1024 .f32) (X1 : Vec F S16x3072 .f32) (X2 : Vec F S1024x16 .f32)
    (h0 : ∀ j : S3072x1024.Idx, 1696 ≤ (j 0).val → X0 j = Scalar.ofBits .f32 0x00000000#32)
    (h1 : ∀ j : S16x3072.Idx, 1696 ≤ (j 1).val → X1 j = Scalar.ofBits .f32 0x00000000#32) :
    k0_pay3 X0 X1 X2 = k0_pay2 X2 X0 X1 := by
  have e0 : mask0 X0 = shapeCast S3072x1024 X0 shapeCasts_S3072x1024_S3072x1024 := by
    funext j
    rw [mask0_apply, shapeCast_self]
    by_cases h : (j 0).val < 1696
    · rw [if_pos h]
    · rw [if_neg h]; exact (h0 j (Nat.le_of_not_lt h)).symm
  have e1 : mask1 X1 = shapeCast S16x3072 X1 shapeCasts_S16x3072_S16x3072 := by
    funext j
    rw [mask1_apply, shapeCast_self]
    by_cases h : (j 1).val < 1696
    · rw [if_pos h]
    · rw [if_neg h]; exact (h1 j (Nat.le_of_not_lt h)).symm
  rw [pay3_eq_mask, e0, e1]
  rfl

end Cert.KernelIdeal.Hand

end
-- ==== Proof.KIFrame.lean ====
/-
  The frame of the K-blocked matmul: at every grid point the body, run on what the pipeline hands it, leaves what
  the proof data says; hence the whole program runs to the end, faults nowhere, and leaves `x` and `W` as they were.

  At a point the two input buffers hold their slabs on the rows (columns) inside the arrays and, past the arrays'
  end, words nothing names. Of the 33 points only the last has such a tail, and there the body masks it away
  before contracting; so what the body leaves in the output buffer is the same function of the slabs whatever
  the tail holds, and equals the proof data's `accAt`, which is written with the zero word there.
-/
import proofs.«152865_g9947144257871_rerun558fix_369_27_alg».proof.Proof.KIData
import proofs.«152865_g9947144257871_rerun558fix_369_27_alg».proof.Proof.KIRuns
import proofs.«152865_g9947144257871_rerun558fix_369_27_alg».proof.Proof.KIMask
import proofs.«152865_g9947144257871_rerun558fix_369_27_alg».proof.Proof.Gen.KernelIdeal.Points

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Closed facts over the 33 grid points -/

/-- The first branch is taken at point 0 only, -/
theorem hcond1 : ∀ t : Fin cfg0.N, k0_cond1 (grid0.coords t) = 1#1 ↔ t.val = 0 :=
  (by decide +kernel : ∀ t : Fin grid0.N, k0_cond1 (grid0.coords t) = 1#1 ↔ t.val = 0)
/-- the second at points 1 to 31, -/
theorem hcond2 : ∀ t : Fin cfg0.N, k0_cond2 (grid0.coords t) = 1#1 ↔ (0 < t.val ∧ t.val < 32) :=
  (by decide +kernel : ∀ t : Fin grid0.N, k0_cond2 (grid0.coords t) = 1#1 ↔ (0 < t.val ∧ t.val < 32))
/-- the third at point 32 only. -/
theorem hcond3 : ∀ t : Fin cfg0.N, k0_cond3 (grid0.coords t) = 1#1 ↔ t.val = 32 :=
  (by decide +kernel : ∀ t : Fin grid0.N, k0_cond3 (grid0.coords t) = 1#1 ↔ t.val = 32)

/-- Some branch stores into the output buffer at every point: the output window is never idle. -/
theorem idle2_at : ∀ t : Fin cfg0.N, cfg0.idle 2 (cfg0.grid.coords t) = false :=
  (by decide +kernel : ∀ t : Fin grid0.N, idle0 2 (grid0.coords t) = false)

/-- Slab `t` of the transposed `x` has 3072 rows inside the array, but for the last, which has 1696; all 1024 columns. -/
theorem xsize_0 : ∀ t : Fin cfg0.N, win0_0.xsize (grid0.coords t) 0 = (if t.val = 32 then 1696 else 3072)
    ∧ win0_0.xsize (grid0.coords t) 1 = 1024 :=
  (by decide +kernel : ∀ t : Fin grid0.N, win0_0.xsize (grid0.coords t) 0 = (if t.val = 32 then 1696 else 3072)
    ∧ win0_0.xsize (grid0.coords t) 1 = 1024)
/-- Slab `t` of the transposed `W`: all 16 rows; 3072 columns inside the array, but for the last, which has 1696. -/
theorem xsize_1 : ∀ t : Fin cfg0.N, win0_1.xsize (grid0.coords t) 0 = 16
    ∧ win0_1.xsize (grid0.coords t) 1 = (if t.val = 32 then 1696 else 3072) :=
  (by decide +kernel : ∀ t : Fin grid0.N, win0_1.xsize (grid0.coords t) 0 = 16
    ∧ win0_1.xsize (grid0.coords t) 1 = (if t.val = 32 then 1696 else 3072))

/-! ## What the body finds in the three buffers -/

/-- Both inputs are fetched at every point: the buffer holds the slab on the part inside the array, `d` elsewhere. -/
theorem before_0 (c : Dev nD) (t : Fin cfg0.N) (d) :
    (dats m 0 c).before 0 t d = win0_0.fill (grid0.coords t) d (iblk m c 0 t) := by
  rw [Dat.before_fetched _ 0 t (fetch0_0 t)]
  unfold Dat.fetched Dat.blockOf iblk
  rw [A_eq]
theorem before_1 (c : Dev nD) (t : Fin cfg0.N) (d) :
    (dats m 0 c).before 1 t d = win0_1.fill (grid0.coords t) d (iblk m c 1 t) := by
  rw [Dat.before_fetched _ 1 t (fetch0_1 t)]
  unfold Dat.fetched Dat.blockOf iblk
  rw [A_eq]

/-- At the first point the output buffer holds anything; -/
theorem before_2_first (c : Dev nD) (t : Fin cfg0.N) (h : t.val = 0) (d) : (dats m 0 c).before 2 t d = d :=
  Dat.before_out_reset _ 2 rfl t (.inl h) d

/-- at a later point what the point before left (the block is written back after the last point only). -/
theorem before_2_later (c : Dev nD) (t : Fin cfg0.N) (h : t.val ≠ 0) (d) :
    (dats m 0 c).before 2 t d = accAt m c (t.val - 1) (Nat.lt_of_le_of_lt (Nat.sub_le _ _) t.isLt) := by
  have hN : t.val < 33 := lt_of_lt_of_eq t.isLt (show cfg0.N = 33 from N_0)
  rw [Dat.before_of_pos _ 2 t h ((cfg0.win 2).fetch_out rfl t),
    if_neg (fun hf => by have := (flush0_2 _).mp hf; dsimp only at this; omega)]
  unfold Dat.left
  rw [idle2_at]
  dsimp only
  unfold Dat.kept
  rw [Pipeline.fill_of_clip_none (cfg := cfg0) 2 _ (fun _ => rfl) d ((dats m 0 c).after 2 _), Window.fill_cut, after_2]

/-! ## Where nothing is cut the filler does not show -/

theorem moved_0 (t : Fin cfg0.N) (j : S3072x1024.Idx) (hj : t.val = 32 → (j 0).val < 1696) :
    win0_0.moved (grid0.coords t) j = true := by
  refine (win0_0.moved_iff _ j).mpr fun a => ?_
  have hx := xsize_0 t
  have h0 : (j 0).val < 3072 := (j 0).isLt
  have h1 : (j 1).val < 1024 := (j 1).isLt
  match a with
  | ⟨0, _⟩ =>
    show (j 0).val < win0_0.xsize (grid0.coords t) 0
    rw [hx.1]; split
    · exact hj ‹_›
    · exact h0
  | ⟨1, _⟩ =>
    show (j 1).val < win0_0.xsize (grid0.coords t) 1
    rw [hx.2]; exact h1

theorem moved_1 (t : Fin cfg0.N) (j : S16x3072.Idx) (hj : t.val = 32 → (j 1).val < 1696) :
    win0_1.moved (grid0.coords t) j = true := by
  refine (win0_1.moved_iff _ j).mpr fun a => ?_
  have hx := xsize_1 t
  have h0 : (j 0).val < 16 := (j 0).isLt
  have h1 : (j 1).val < 3072 := (j 1).isLt
  match a with
  | ⟨0, _⟩ =>
    show (j 0).val < win0_1.xsize (grid0.coords t) 0
    rw [hx.1]; exact h0
  | ⟨1, _⟩ =>
    show (j 1).val < win0_1.xsize (grid0.coords t) 1
    rw [hx.2]; split
    · exact hj ‹_›
    · exact h1

theorem fill0_at {α : Type} (t : Fin cfg0.N) (d d' : S3072x1024.Idx → α) (g) (j : S3072x1024.Idx)
    (hj : t.val = 32 → (j 0).val < 1696) :
    win0_0.fill (grid0.coords t) d g j = win0_0.fill (grid0.coords t) d' g j := by
  have hm := moved_0 t j hj
  unfold Window.fill; rw [dif_pos hm, dif_pos hm]

theorem fill1_at {α : Type} (t : Fin cfg0.N) (d d' : S16x3072.Idx → α) (g) (j : S16x3072.Idx)
    (hj : t.val = 32 → (j 1).val < 1696) :
    win0_1.fill (grid0.coords t) d g j = win0_1.fill (grid0.coords t) d' g j := by
  have hm := moved_1 t j hj
  unfold Window.fill; rw [dif_pos hm, dif_pos hm]

/-! ## What the body leaves in the output buffer is `accAt` -/

/-- The first point: the slab product, whatever fills the (empty) tail. -/
theorem leaves_first (c : Dev nD) (t : Fin cfg0.N) (h : t.val = 0) (d0 d1) :
    k0_pay1 (win0_0.fill (grid0.coords t) d0 (iblk m c 0 t)) (win0_1.fill (grid0.coords t) d1 (iblk m c 1 t))
      = accAt m c t.val t.isLt := by
  obtain ⟨n, hn⟩ := t
  dsimp only at h; subst h
  rw [accAt_zero]; unfold xin win
  rw [show win0_0.fill (grid0.coords ⟨0, hn⟩) d0 (iblk m c 0 ⟨0, hn⟩) = win0_0.fill (grid0.coords ⟨0, hn⟩) (fun _ => zw) (iblk m c 0 ⟨0, hn⟩) from
      funext fun j => fill0_at _ _ _ _ j (fun h => by exfalso; dsimp only at h; omega),
    show win0_1.fill (grid0.coords ⟨0, hn⟩) d1 (iblk m c 1 ⟨0, hn⟩) = win0_1.fill (grid0.coords ⟨0, hn⟩) (fun _ => zw) (iblk m c 1 ⟨0, hn⟩) from
      funext fun j => fill1_at _ _ _ _ j (fun h => by exfalso; dsimp only at h; omega)]

/-- A middle point: what the point before left plus the slab product. -/
theorem leaves_mid (c : Dev nD) (t : Fin cfg0.N) (h0 : t.val ≠ 0) (h32 : t.val ≠ 32) (d0 d1) :
    k0_pay2 (accAt m c (t.val - 1) (Nat.lt_of_le_of_lt (Nat.sub_le _ _) t.isLt))
        (win0_0.fill (grid0.coords t) d0 (iblk m c 0 t)) (win0_1.fill (grid0.coords t) d1 (iblk m c 1 t))
      = accAt m c t.val t.isLt := by
  obtain ⟨n, hn⟩ := t
  cases n with
  | zero => exact absurd rfl h0
  | succ n =>
    dsimp only at h32 ⊢
    rw [accAt_mid m c n hn h32]; unfold xin win
    rw [show win0_0.fill (grid0.coords ⟨n + 1, hn⟩) d0 (iblk m c 0 ⟨n + 1, hn⟩) = win0_0.fill (grid0.coords ⟨n + 1, hn⟩) (fun _ => zw) (iblk m c 0 ⟨n + 1, hn⟩) from
        funext fun j => fill0_at _ _ _ _ j (fun h => absurd h h32),
      show win0_1.fill (grid0.coords ⟨n + 1, hn⟩) d1 (iblk m c 1 ⟨n + 1, hn⟩) = win0_1.fill (grid0.coords ⟨n + 1, hn⟩) (fun _ => zw) (iblk m c 1 ⟨n + 1, hn⟩) from
        funext fun j => fill1_at _ _ _ _ j (fun h => absurd h h32)]
    rfl

/-- The last point: the masked slabs' product does not read the tails. -/
theorem leaves_last (c : Dev nD) (t : Fin cfg0.N) (h32 : t.val = 32) (d0 d1) :
    k0_pay3 (win0_0.fill (grid0.coords t) d0 (iblk m c 0 t)) (win0_1.fill (grid0.coords t) d1 (iblk m c 1 t))
        (accAt m c (t.val - 1) (Nat.lt_of_le_of_lt (Nat.sub_le _ _) t.isLt))
      = accAt m c t.val t.isLt := by
  obtain ⟨n, hn⟩ := t
  cases n with
  | zero => exfalso; dsimp only at h32; omega
  | succ n =>
    dsimp only at h32 ⊢
    rw [accAt_last m c n hn h32]; unfold xin win
    exact pay3_congr _ _ _ _ _ (fun j hj => fill0_at _ _ _ _ j (fun _ => hj)) (fun j hj => fill1_at _ _ _ _ j (fun _ => hj))

/-! ## The body obligation, at a generic point -/

/-- What the body is called with at point `t`: the invariant, nothing owed, and the three current staging buffers
    at what the pipeline left in them; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: the two input buffers at their slabs on the part inside the arrays (anything past it),
    the output's at `accAt t`. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (iblk m c 0 t)))
    ∗ (∃ d, owns (c : Thread nD τ) (st0_1 t) fullShare (win0_1.fill (grid0.coords t) d (iblk m c 1 t)))
    ∗ owns (c : Thread nD τ) (st0_2 t) fullShare (accAt m c t.val t.isLt))

set_option maxHeartbeats 800000 in
/-- The body at any point: which branch runs is decided by the point's number; the case's run applies to what the
    three buffers hold; what it leaves in the output buffer is `accAt` (the `leaves_…` equations). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  have hN : t.val < 33 := lt_of_lt_of_eq t.isLt (show cfg0.N = 33 from N_0)
  iintro ⟨HΦ, Ho, ⟨%d0, H0⟩, ⟨%d1, H1⟩, ⟨%d2, H2⟩⟩
  rw [before_0 m c t d0, before_1 m c t d1]
  by_cases h0 : t.val = 0
  · rw [before_2_first m c t h0 d2]
    iapply (run_first (F := F) c (grid0.coords t) _ _ _ _ _ _ ((hcond1 t).mpr h0)
      (fun h => by have := (hcond2 t).mp h; omega) (fun h => by have := (hcond3 t).mp h; omega)
      (win0_0.fill (grid0.coords t) d0 (iblk m c 0 t)) (win0_1.fill (grid0.coords t) d1 (iblk m c 1 t)) d2 Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexists d0; iexact H0
    isplitl [H1]; · iexists d1; iexact H1
    rw [← leaves_first m c t h0 d0 d1]
    iexact H2
  · rw [before_2_later m c t h0 d2]
    by_cases h32 : t.val = 32
    ·
      iapply (run_last (F := F) c (grid0.coords t) _ _ _ _ _ _
        (fun h => by have := (hcond1 t).mp h; omega) (fun h => by have := (hcond2 t).mp h; omega) ((hcond3 t).mpr h32)
        (win0_0.fill (grid0.coords t) d0 (iblk m c 0 t)) (win0_1.fill (grid0.coords t) d1 (iblk m c 1 t)) _ Set.univ _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexists d0; iexact H0
      isplitl [H1]; · iexists d1; iexact H1
      rw [← leaves_last m c t h32 d0 d1]
      iexact H2
    ·
      iapply (run_mid (F := F) c (grid0.coords t) _ _ _ _ _ _
        (fun h => by have := (hcond1 t).mp h; omega) ((hcond2 t).mpr ⟨by omega, by omega⟩) (fun h => by have := (hcond3 t).mp h; omega)
        (win0_0.fill (grid0.coords t) d0 (iblk m c 0 t)) (win0_1.fill (grid0.coords t) d1 (iblk m c 1 t)) _ Set.univ _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexists d0; iexact H0
      isplitl [H1]; · iexists d1; iexact H1
      rw [← leaves_mid m c t h0 h32 d0 d1]
      iexact H2

/-- The inputs' buffers are handed back as they were found: on the part inside the array the slab (the three
    spellings of the window that the obligation's statement may show). -/
theorem back_0 (c : Dev nD) (t : Fin cfg0.N) (d) :
    (win0 0).fill (grid0.coords t) d ((win0 0).cut (grid0.coords t) ((dats m 0 c).after 0 t))
      = win0_0.fill (grid0.coords t) d (iblk m c 0 t) := by
  rw [after_0]; unfold xin
  exact congrArg (win0_0.fill (grid0.coords t) d) (win0_0.cut_fill _ _ _)
theorem back_1 (c : Dev nD) (t : Fin cfg0.N) (d) :
    (win0 1).fill (grid0.coords t) d ((win0 1).cut (grid0.coords t) ((dats m 0 c).after 1 t))
      = win0_1.fill (grid0.coords t) d (iblk m c 1 t) := by
  rw [after_1]; unfold win
  exact congrArg (win0_1.fill (grid0.coords t) d) (win0_1.cut_fill _ _ _)
theorem idle2_at' (t : Fin cfg0.N) : idle0 2 (grid0.coords t) = false := idle2_at t

end Cert.KernelIdeal.Hand

end
-- ==== Proof.KIRun.lean ====
/-
  The frame run of the K-blocked matmul: the library's body obligation from the body's run at a generic point,
  the pipeline's run over all 33 points, and the frame — the program terminates, faults nowhere, and leaves
  `x` and `W` as they were.
-/
import proofs.«152865_g9947144257871_rerun558fix_369_27_alg».proof.Proof.KIFrame

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The library's body obligation, each input window stated on the part its transfers move. -/
theorem body_obligation (c : Dev nD) : BodyObligationLoose (dats (F := F) m 0 c) (defs₀ (F := F)) Variants.none () Set.univ := fun t => by
  rw [bigSep_W0, bigSep_W0]
  simp only [after_2]
  rw [idle2_at' t]
  simp only [back_0 m c t, back_1 m c t]
  exact sound_body m c t

/-! ## The run and the frame -/

set_option backward.isDefEq.respectTransparency.types false in
/-- For any values, from any memory with zero counters: every weakly fair execution of the program terminates,
    and every final state has every array of the pipeline at what the library computes from the proof data and
    every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the program runs to the end, faults nowhere, and leaves `x` and `W` unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.KIBlocks.lean ====
/-
  The staged slabs read at an index, in terms of the kernel's two arguments. The region's first operand is the
  transpose of `x` and its second the transpose of `W` (two host transposes before the call); slab `t` of the first
  is rows `3072 t ‥ 3072 t + 3071` of that transpose, as far as they exist, and slab `t` of the second the same
  columns. So row `j` of staged slab `t`, column `p`, is `x[p, 3072 t + j]` when `3072 t + j < 100000` and the
  zero word otherwise; likewise for `W`.
-/
import proofs.«152865_g9947144257871_rerun558fix_369_27_alg».proof.Proof.KIData
import Idealize.ShloMosaic.Lib.ValueIdx
import Idealize.ShloMosaic.Lib.Pipeline.Value
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx
variable {F : FTy → Type} [FloatOps F]

variable (m : (ℓ : Loc nD τ sig) → Buf (Elt F) ℓ)

/-- What the region finds in its first operand: the transpose of `x` (the first of the two host transposes). -/
theorem V_v0 (c : Dev nD) : (V m c main_v0 : S100000x1024.Idx → Elt F .f32)
    = transpose S100000x1024 [1, 0] (m ((c : Thread nD τ).loc main_arg0)) transposes_S1024x100000_S100000x1024_1_0 := by
  dsimp only [Gen.V, Gen.hostOps0]; after_results

/-- What the region finds in its second operand: the transpose of `W`. -/
theorem V_v1 (c : Dev nD) : (V m c main_v1 : S16x100000.Idx → Elt F .f32)
    = transpose S16x100000 [1, 0] (m ((c : Thread nD τ).loc main_arg1)) transposes_S100000x16_S16x100000_1_0 := by
  dsimp only [Gen.V, Gen.hostOps0]; after_results

/-- Row `i`, column `p` of the transposed `x` is `x[p, i]`. -/
theorem V_v0_apply (c : Dev nD) (i : Fin 100000) (p : Fin 1024) :
    (V m c main_v0 : S100000x1024.Idx → Elt F .f32) (ix2 i p)
      = (m ((c : Thread nD τ).loc main_arg0) : S1024x100000.Idx → Elt F .f32) (ix2 p i) := by
  rw [V_v0]
  exact transpose_apply _ _ _ _ _ (fun b => by
    match b with
    | ⟨0, _⟩ => rfl
    | ⟨1, _⟩ => rfl)

/-- Row `q`, column `i` of the transposed `W` is `W[i, q]`. -/
theorem V_v1_apply (c : Dev nD) (q : Fin 16) (i : Fin 100000) :
    (V m c main_v1 : S16x100000.Idx → Elt F .f32) (ix2 q i)
      = (m ((c : Thread nD τ).loc main_arg1) : S100000x16.Idx → Elt F .f32) (ix2 i q) := by
  rw [V_v1]
  exact transpose_apply _ _ _ _ _ (fun b => by
    match b with
    | ⟨0, _⟩ => rfl
    | ⟨1, _⟩ => rfl)

/-- The first window over the grid: slab `t` is block `(t, 0)`; its transfer moves all 3072 rows before the last
    point and 1696 rows at the last (`32 * 3072 + 1696 = 100000`), and all 1024 columns. -/
theorem slab_facts0 : ∀ t : Fin cfg0.N,
    win0_0.index t (0 : Fin 2) = t.val ∧ win0_0.index t (1 : Fin 2) = 0
    ∧ ((t.val < 32 ∧ win0_0.xsize (grid0.coords t) (0 : Fin 2) = 3072) ∨ (t.val = 32 ∧ win0_0.xsize (grid0.coords t) (0 : Fin 2) = 1696))
    ∧ win0_0.xsize (grid0.coords t) (1 : Fin 2) = 1024 :=
  (by decide +kernel : ∀ t : Fin grid0.N, _)

/-- The second window over the grid: slab `t` is block `(0, t)`; its transfer moves all 16 rows, and all 3072 columns
    before the last point and 1696 columns at the last. -/
theorem slab_facts1 : ∀ t : Fin cfg0.N,
    win0_1.index t (0 : Fin 2) = 0 ∧ win0_1.index t (1 : Fin 2) = t.val
    ∧ win0_1.xsize (grid0.coords t) (0 : Fin 2) = 16
    ∧ ((t.val < 32 ∧ win0_1.xsize (grid0.coords t) (1 : Fin 2) = 3072) ∨ (t.val = 32 ∧ win0_1.xsize (grid0.coords t) (1 : Fin 2) = 1696)) :=
  (by decide +kernel : ∀ t : Fin grid0.N, _)

/-- Row `j`, column `p` of staged slab `t` of the transposed `x`. -/
theorem xin_apply (c : Dev nD) (t : Fin cfg0.N) (j : Fin 3072) (p : Fin 1024) :
    xin m c t (ix2 j p)
      = if h : t.val * 3072 + j.val < 100000 then
          (m ((c : Thread nD τ).loc main_arg0) : S1024x100000.Idx → Elt F .f32) (ix2 p ⟨t.val * 3072 + j.val, h⟩)
        else zw := by
  obtain ⟨e0, e1, e2, e3⟩ := slab_facts0 t
  have hj : j.val < 3072 := j.isLt
  have hp : p.val < 1024 := p.isLt
  unfold xin Window.fill
  split
  · -- the row is among those the transfer moves: it lies inside the array, and the slab's element there is the
    -- transposed array's at row `3072 t + j`
    rename_i hm
    have h0 : j.val < win0_0.xsize (grid0.coords t) (0 : Fin 2) := (win0_0.moved_iff _ _).mp hm 0
    have hlt : t.val * 3072 + j.val < 100000 := by omega
    rw [dif_pos hlt]
    refine Eq.trans ?_ (V_v0_apply m c ⟨t.val * 3072 + j.val, hlt⟩ p)
    show V m c main_v0 (((cfg0.win 0).blk t).view.emb _) = _
    refine congrArg (V m c main_v0) (funext fun a => Fin.ext ?_)
    match a with
    | ⟨0, _⟩ =>
      show win0_0.index t (0 : Fin 2) * 3072 + 1 * j.val = t.val * 3072 + j.val
      rw [e0]; omega
    | ⟨1, _⟩ =>
      show win0_0.index t (1 : Fin 2) * 1024 + 1 * p.val = p.val
      rw [e1]; omega
  · -- the row is past those moved: it is past the array's end, and the filler is the zero word
    rename_i hm
    have hge : ¬ t.val * 3072 + j.val < 100000 := fun hlt => hm ((win0_0.moved_iff _ _).mpr fun a => by
      match a with
      | ⟨0, _⟩ => show j.val < win0_0.xsize (grid0.coords t) (0 : Fin 2); omega
      | ⟨1, _⟩ => show p.val < win0_0.xsize (grid0.coords t) (1 : Fin 2); omega)
    rw [dif_neg hge]

/-- Row `q`, column `j` of staged slab `t` of the transposed `W`. -/
theorem win_apply (c : Dev nD) (t : Fin cfg0.N) (q : Fin 16) (j : Fin 3072) :
    win m c t (ix2 q j)
      = if h : t.val * 3072 + j.val < 100000 then
          (m ((c : Thread nD τ).loc main_arg1) : S100000x16.Idx → Elt F .f32) (ix2 ⟨t.val * 3072 + j.val, h⟩ q)
        else zw := by
  obtain ⟨e0, e1, e2, e3⟩ := slab_facts1 t
  have hq : q.val < 16 := q.isLt
  have hj : j.val < 3072 := j.isLt
  unfold win Window.fill
  split
  · -- the column is among those the transfer moves: it lies inside the array, and the slab's element there is the
    -- transposed array's at column `3072 t + j`
    rename_i hm
    have h1 : j.val < win0_1.xsize (grid0.coords t) (1 : Fin 2) := (win0_1.moved_iff _ _).mp hm 1
    have hlt : t.val * 3072 + j.val < 100000 := by omega
    rw [dif_pos hlt]
    refine Eq.trans ?_ (V_v1_apply m c q ⟨t.val * 3072 + j.val, hlt⟩)
    show V m c main_v1 (((cfg0.win 1).blk t).view.emb _) = _
    refine congrArg (V m c main_v1) (funext fun a => Fin.ext ?_)
    match a with
    | ⟨0, _⟩ =>
      show win0_1.index t (0 : Fin 2) * 16 + 1 * q.val = q.val
      rw [e0]; omega
    | ⟨1, _⟩ =>
      show win0_1.index t (1 : Fin 2) * 3072 + 1 * j.val = t.val * 3072 + j.val
      rw [e1]; omega
  · -- the column is past those moved: it is past the array's end, and the filler is the zero word
    rename_i hm
    have hge : ¬ t.val * 3072 + j.val < 100000 := fun hlt => hm ((win0_1.moved_iff _ _).mpr fun a => by
      match a with
      | ⟨0, _⟩ => show q.val < win0_1.xsize (grid0.coords t) (0 : Fin 2); omega
      | ⟨1, _⟩ => show j.val < win0_1.xsize (grid0.coords t) (1 : Fin 2); omega)
    rw [dif_neg hge]

end Cert.KernelIdeal.Hand

end
-- ==== Proof.KIPay.lean ====
/-
  The first and the middle points' payloads read at an index, on the extended reals: the matrix unit's product
  into a zero accumulator is the plain sum over the contraction axis, here the slab's 3072 rows of the staged
  (3072, 1024) block against the 3072 columns of the staged (16, 3072) block.
-/
import proofs.«152865_g9947144257871_rerun558fix_369_27_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx
variable {F : FTy → Type} [FloatOps F]

/-- The (3072, 1024) operand's index at output index `i` and contraction index `k`: axis 0 is the contracted one. -/
theorem lhs_pay_0 (i : S1024x16.Idx) (k : dot_S3072x1024_S16x3072_S1024x16_0_1_1_0_n_n.contr.Idx) :
    (dot_S3072x1024_S16x3072_S1024x16_0_1_1_0_n_n.lhsIdx i k 0).val = (k ⟨0, by decide⟩).val :=
  dot_S3072x1024_S16x3072_S1024x16_0_1_1_0_n_n.lhsIdx_val_of_single rfl i k
/-- … and its axis 1 is the output's axis 0. -/
theorem lhs_pay_1 (i : S1024x16.Idx) (k : dot_S3072x1024_S16x3072_S1024x16_0_1_1_0_n_n.contr.Idx) :
    (dot_S3072x1024_S16x3072_S1024x16_0_1_1_0_n_n.lhsIdx i k 1).val = (i 0).val := by
  unfold DotDims.lhsIdx
  rw [dif_neg (show ¬(1 : Fin S3072x1024.rank) ∈ dot_S3072x1024_S16x3072_S1024x16_0_1_1_0_n_n.lhsBatch by decide), dif_pos (show (1 : Fin S3072x1024.rank) ∈ dot_S3072x1024_S16x3072_S1024x16_0_1_1_0_n_n.lhsNonContracting by decide)]
  rfl
/-- The (16, 3072) operand's index: its axis 0 is the output's axis 1. -/
theorem rhs_pay_0 (i : S1024x16.Idx) (k : dot_S3072x1024_S16x3072_S1024x16_0_1_1_0_n_n.contr.Idx) :
    (dot_S3072x1024_S16x3072_S1024x16_0_1_1_0_n_n.rhsIdx i k 0).val = (i 1).val := by
  unfold DotDims.rhsIdx
  rw [dif_neg (show ¬(0 : Fin S16x3072.rank) ∈ dot_S3072x1024_S16x3072_S1024x16_0_1_1_0_n_n.rhsBatch by decide), dif_pos (show (0 : Fin S16x3072.rank) ∈ dot_S3072x1024_S16x3072_S1024x16_0_1_1_0_n_n.rhsNonContracting by decide)]
  rfl
/-- … and its axis 1 is the contracted one. -/
theorem rhs_pay_1 (i : S1024x16.Idx) (k : dot_S3072x1024_S16x3072_S1024x16_0_1_1_0_n_n.contr.Idx) :
    (dot_S3072x1024_S16x3072_S1024x16_0_1_1_0_n_n.rhsIdx i k 1).val = (k ⟨0, by decide⟩).val :=
  dot_S3072x1024_S16x3072_S1024x16_0_1_1_0_n_n.rhsIdx_val_of_single rfl i k

/-- The contraction's sum at output index (p, q), re-indexed by the slab's 3072 rows: the left operand is read at
    (j, p) and the right one at (q, j). -/
theorem dot_sum (L : FVec Ideal S3072x1024 .f32) (R : FVec Ideal S16x3072 .f32) (p : Fin 1024) (q : Fin 16) :
    ∑ k : dot_S3072x1024_S16x3072_S1024x16_0_1_1_0_n_n.contr.Idx, L (dot_S3072x1024_S16x3072_S1024x16_0_1_1_0_n_n.lhsIdx (ix2 p q) k) * R (dot_S3072x1024_S16x3072_S1024x16_0_1_1_0_n_n.rhsIdx (ix2 p q) k)
      = ∑ j : Fin 3072, L (ix2 j p) * R (ix2 q j) := by
  rw [← Equiv.sum_comp (contrEquiv1 dot_S3072x1024_S16x3072_S1024x16_0_1_1_0_n_n 3072 rfl rfl).symm]
  refine Finset.sum_congr rfl fun k _ => ?_
  have hk := contrEquiv1_symm_val dot_S3072x1024_S16x3072_S1024x16_0_1_1_0_n_n 3072 rfl rfl k
  have el : dot_S3072x1024_S16x3072_S1024x16_0_1_1_0_n_n.lhsIdx (ix2 p q) ((contrEquiv1 dot_S3072x1024_S16x3072_S1024x16_0_1_1_0_n_n 3072 rfl rfl).symm k) = ix2 k p := funext fun a => Fin.ext (by
    match a with
    | ⟨0, _⟩ => exact (lhs_pay_0 _ _).trans hk
    | ⟨1, _⟩ => exact lhs_pay_1 _ _)
  have er : dot_S3072x1024_S16x3072_S1024x16_0_1_1_0_n_n.rhsIdx (ix2 p q) ((contrEquiv1 dot_S3072x1024_S16x3072_S1024x16_0_1_1_0_n_n 3072 rfl rfl).symm k) = ix2 q k := funext fun a => Fin.ext (by
    match a with
    | ⟨0, _⟩ => exact rhs_pay_0 _ _
    | ⟨1, _⟩ => exact (rhs_pay_1 _ _).trans hk)
  rw [el, er]

/-- The first point's payload at output index (p, q): the sum over the slab's rows. -/
theorem pay1_apply (X0 : Vec Ideal S3072x1024 .f32) (X1 : Vec Ideal S16x3072 .f32) (p : Fin 1024) (q : Fin 16) :
    k0_pay1 (F := Ideal) X0 X1 (ix2 p q) = ∑ j : Fin 3072, X0 (ix2 j p) * X1 (ix2 q j) := by
  unfold k0_pay1
  rw [shapeCast_self, shapeCast_self]
  exact (Ideal.matmul_constant_zero_apply dot_S3072x1024_S16x3072_S1024x16_0_1_1_0_n_n none X0 X1 (ix2 p q)).trans (dot_sum X0 X1 p q)

/-- A middle point's payload at output index (p, q): what the block held there plus the sum over the slab's rows. -/
theorem pay2_apply (A : Vec Ideal S1024x16 .f32) (X0 : Vec Ideal S3072x1024 .f32) (X1 : Vec Ideal S16x3072 .f32) (p : Fin 1024) (q : Fin 16) :
    k0_pay2 (F := Ideal) A X0 X1 (ix2 p q) = A (ix2 p q) + ∑ j : Fin 3072, X0 (ix2 j p) * X1 (ix2 q j) := by
  unfold k0_pay2
  rw [shapeCast_self, shapeCast_self, shapeCast_self]
  exact congrArg (A (ix2 p q) + ·)
    ((Ideal.matmul_constant_zero_apply dot_S3072x1024_S16x3072_S1024x16_0_1_1_0_n_n none X0 X1 (ix2 p q)).trans (dot_sum X0 X1 p q))

end Cert.KernelIdeal.Hand

end
-- ==== Proof.Spec.lean ====
/-
  What both programs compute, and the one re-indexing between them.

  `G x w p q` is entry (p, q) of the matrix product of `x` (1024 × 100000) and `w` (100000 × 16) on the extended
  reals: the sum over the 100000 contraction indices. The kernel forms the same sum slab by slab: 33 slabs of
  3072 consecutive indices, the last slab's indices past 100000 contributing zero. `sum_slabs` says the two
  groupings agree in any commutative additive monoid: addition on the extended reals is commutative and
  associative, so nothing about finiteness is needed.
-/
import Idealize.ShloMosaic.PureOps.Ideal
import Idealize.ShloMosaic.Lib.ValueIdx
import Mathlib.Algebra.BigOperators.Group.Finset.Basic
import Mathlib.Data.Fintype.BigOperators
import Mathlib.Logic.Equiv.Fin.Basic

noncomputable section

open scoped BigOperators

namespace Cert.Spec

open Idealize.ShloMosaic Idealize.ShloMosaic.ValueIdx

/-- Entry (p, q) of the product of a 1024 × 100000 and a 100000 × 16 array of extended reals. -/
def G (x : (⟨2, ![1024, 100000]⟩ : Shape).Idx → EReal) (w : (⟨2, ![100000, 16]⟩ : Shape).Idx → EReal)
    (p : Fin 1024) (q : Fin 16) : EReal :=
  ∑ k : Fin 100000, x (ix2 p k) * w (ix2 k q)

/-- A sum over 100000 indices, taken in 33 slabs of 3072 with zero past the end. -/
theorem sum_slabs {M : Type*} [AddCommMonoid M] (f : ℕ → M) :
    ∑ t : Fin 33, ∑ j : Fin 3072, (if t.val * 3072 + j.val < 100000 then f (t.val * 3072 + j.val) else 0)
      = ∑ k : Fin 100000, f k.val := by
  -- `g` is `f` below 100000 and zero from there on
  let g : ℕ → M := fun n => if n < 100000 then f n else 0
  -- the 33 × 3072 pairs (t, j) enumerate 0, …, 101375 as 3072 t + j, each exactly once
  have hpair : ∑ t : Fin 33, ∑ j : Fin 3072, g (t.val * 3072 + j.val) = ∑ n : Fin (33 * 3072), g n.val := by
    rw [← Equiv.sum_comp finProdFinEquiv (fun n : Fin (33 * 3072) => g n.val), Fintype.sum_prod_type]
    refine Finset.sum_congr rfl fun t _ => Finset.sum_congr rfl fun j _ => congrArg g ?_
    simp only [finProdFinEquiv_apply_val]
    omega
  -- the terms from 100000 on are zero, so only the first 100000 remain
  have hpad : ∑ n ∈ Finset.range (33 * 3072), g n = ∑ n ∈ Finset.range 100000, f n := by
    show ∑ n ∈ Finset.range (33 * 3072), (if n < 100000 then f n else 0) = _
    rw [← Finset.sum_filter]
    refine Finset.sum_congr ?_ fun _ _ => rfl
    ext n
    simp only [Finset.mem_filter, Finset.mem_range]
    omega
  calc ∑ t : Fin 33, ∑ j : Fin 3072,
        (if t.val * 3072 + j.val < 100000 then f (t.val * 3072 + j.val) else 0)
      = ∑ n : Fin (33 * 3072), g n.val := hpair
    _ = ∑ n ∈ Finset.range (33 * 3072), g n := Fin.sum_univ_eq_sum_range g _
    _ = ∑ n ∈ Finset.range 100000, f n := hpad
    _ = ∑ k : Fin 100000, f k.val := (Fin.sum_univ_eq_sum_range f _).symm

end Cert.Spec

end
-- ==== Proof.KIValue.lean ====
/-
  The value of the K-blocked matmul on the extended reals: the output array ends holding the matrix product.

  Write `prodAt p q k` for `x[p, k] · W[k, q]`, and zero for `k` at or past 100000. Row `j` of staged slab `t`
  pairs with column `j` of the other staged slab, and their product is `prodAt p q (3072 t + j)`: inside the arrays
  both factors are the arrays' entries, past their end both are the zero word. A point's contraction is therefore
  the slab's sum of `prodAt`; the first point stores it, every later point adds it to what the block held — the last
  point after a mask that, on slabs already zero past row 1696, changes nothing. By induction the block after point
  `n` is the sum over slabs `0 ‥ n`; after the last point that is the sum over all 33 slabs, which re-grouped is the
  sum over the 100000 contraction indices. The one write-back, after the last point, writes the whole block.
-/
import proofs.«152865_g9947144257871_rerun558fix_369_27_alg».proof.Proof.KIRun
import proofs.«152865_g9947144257871_rerun558fix_369_27_alg».proof.Proof.KIBlocks
import proofs.«152865_g9947144257871_rerun558fix_369_27_alg».proof.Proof.KIPay
import proofs.«152865_g9947144257871_rerun558fix_369_27_alg».proof.Proof.Spec
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI Idealize.SL.Sem
open Idealize.ShloMosaic.Pipeline (Dat Cfg Window)

variable (m : (ℓ : Loc nD τ sig) → Buf (Elt Ideal) ℓ) (ρ : Dev nD → PrngReg)

/-- The two arguments as arrays of extended reals. -/
abbrev xarr (c : Dev nD) : S1024x100000.Idx → EReal := m ((c : Thread nD τ).loc main_arg0)
abbrev warr (c : Dev nD) : S100000x16.Idx → EReal := m ((c : Thread nD τ).loc main_arg1)

/-- `x[p, k] · W[k, q]`, zero at and past the arrays' end. -/
def prodAt (c : Dev nD) (p : Fin 1024) (q : Fin 16) (k : ℕ) : EReal :=
  if h : k < 100000 then xarr m c (ix2 p ⟨k, h⟩) * warr m c (ix2 ⟨k, h⟩ q) else 0

/-- A point's contraction over its two staged slabs is the slab's sum of products. -/
theorem slab_sum (c : Dev nD) (t : Fin cfg0.N) (p : Fin 1024) (q : Fin 16) :
    ∑ j : Fin 3072, xin m c t (ix2 j p) * win m c t (ix2 q j)
      = ∑ j : Fin 3072, prodAt m c p q (t.val * 3072 + j.val) := by
  refine Finset.sum_congr rfl fun j _ => ?_
  rw [xin_apply, win_apply]; unfold prodAt
  by_cases h : t.val * 3072 + j.val < 100000
  · rw [dif_pos h, dif_pos h, dif_pos h]
  · rw [dif_neg h, dif_neg h, dif_neg h]
    show Ideal.ofBits .f32 0x00000000#32 * Ideal.ofBits .f32 0x00000000#32 = 0
    rw [Ideal.ofBits_zero_f32, zero_mul]

/-- The last staged slabs hold the zero word past row (column) 1696. -/
theorem xin_tail (c : Dev nD) (t : Fin cfg0.N) (ht : t.val = 32) (j : S3072x1024.Idx) (hj : 1696 ≤ (j 0).val) :
    xin m c t j = (zw : Ideal .f32) := by
  have h := xin_apply m c t (j 0) (j 1)
  exact (congrArg (xin m c t) (eq_ix2 j)).trans (h.trans (dif_neg (by omega)))
theorem win_tail (c : Dev nD) (t : Fin cfg0.N) (ht : t.val = 32) (j : S16x3072.Idx) (hj : 1696 ≤ (j 1).val) :
    win m c t j = (zw : Ideal .f32) := by
  have h := win_apply m c t (j 0) (j 1)
  exact (congrArg (win m c t) (eq_ix2 j)).trans (h.trans (dif_neg (by omega)))

/-- The output block after point `n` is the sum over slabs `0 ‥ n`. -/
theorem acc_apply (c : Dev nD) : ∀ (n : ℕ) (hn : n < cfg0.N) (p : Fin 1024) (q : Fin 16),
    accAt m c n hn (ix2 p q) = ∑ t : Fin (n + 1), ∑ j : Fin 3072, prodAt m c p q (t.val * 3072 + j.val)
  | 0, hn, p, q => by
    rw [accAt_zero, pay1_apply, slab_sum, Fin.sum_univ_one]
    rfl
  | n + 1, hn, p, q => by
    rw [Fin.sum_univ_castSucc]
    simp only [Fin.coe_castSucc, Fin.val_last]
    rw [← acc_apply c n (Nat.lt_of_succ_lt hn) p q]
    by_cases h : n + 1 = 32
    · rw [accAt_last m c n hn h,
        pay3_eq_pay2 _ _ _ (fun j hj => xin_tail m c ⟨n + 1, hn⟩ h j hj) (fun j hj => win_tail m c ⟨n + 1, hn⟩ h j hj),
        pay2_apply, slab_sum]
    · rw [accAt_mid m c n hn h, pay2_apply, slab_sum]

/-- The last grid point. -/
abbrev tlast : Fin cfg0.N := ⟨32, by decide⟩

/-- The result: the block after the last point, as contents of the result array (its one block is the array). -/
abbrev result (c : Dev nD) : Buf (Elt Ideal) ((c : Thread nD τ).loc main_v2) := accAt m c 32 (by decide)

/-- The one write-back, after the last point, writes it: block (0, 0) of the (1024, 16) array is the array. -/
theorem flushed_eq (c : Dev nD) (t : Fin cfg0.N) (hf : (cfg0.win 2).flush t = true) :
    (dats m 0 c).flushed 2 t = ((cfg0.win 2).blk t).view.read (Elt Ideal) (result m c) := by
  have hN : cfg0.N = 33 := N_0
  have h32 : t.val = 32 := by have := (flush0_2 t).mp hf; have := t.isLt; omega
  obtain rfl : t = tlast := Fin.ext h32
  show (cfg0.win 2).cut (grid0.coords tlast) ((dats m 0 c).after 2 tlast) = _
  rw [after_2]
  have hz' : (fun a => win0_2.index tlast a * main_v2.ty.shape.size a) = fun _ => 0 := funext fun a => by fin_cases a <;> decide
  exact (Memref.read_access_unit_zero (Elt Ideal) main_v2 hz' (fun a => by rw [congrFun hz' a]; simp) (result m c)).symm

/-- So the result array ends holding the block after the last point. -/
theorem final_o (c : Dev nD) : (dats m 0 c).arrAt 2 cfg0.N = result m c :=
  (dats m 0 c).arrAt_eq_of_cover 2 (result m c) (flushed_eq m c) fun i =>
    ⟨tlast, (flush0_2 tlast).mpr rfl, by
      show i ∈ ((View.whole main_v2).slice (win0_2.rect tlast)).set
      rw [View.set_slice_whole, Rect.mem_set_unit]
      intro a
      have h0 : (i 0 : Nat) < 1024 := (i 0).isLt
      have h1 : (i 1 : Nat) < 16 := (i 1).isLt
      match a with
      | ⟨0, _⟩ =>
        show win0_2.index tlast 0 * win0_2.size 0 ≤ (i 0 : Nat) ∧ (i 0 : Nat) < win0_2.index tlast 0 * win0_2.size 0 + win0_2.xsize (grid0.coords tlast) 0
        rw [show win0_2.index tlast 0 * win0_2.size 0 = 0 from by decide +kernel, show win0_2.xsize (grid0.coords tlast) 0 = 1024 from by decide +kernel]; omega
      | ⟨1, _⟩ =>
        show win0_2.index tlast 1 * win0_2.size 1 ≤ (i 1 : Nat) ∧ (i 1 : Nat) < win0_2.index tlast 1 * win0_2.size 1 + win0_2.xsize (grid0.coords tlast) 1
        rw [show win0_2.index tlast 1 * win0_2.size 1 = 0 from by decide +kernel, show win0_2.xsize (grid0.coords tlast) 1 = 16 from by decide +kernel]; omega⟩

/-- The 33 slabs' sums, re-grouped, are the one sum over the contraction axis. -/
theorem sum_prod (c : Dev nD) (p : Fin 1024) (q : Fin 16) :
    ∑ t : Fin 33, ∑ j : Fin 3072, prodAt m c p q (t.val * 3072 + j.val) = Cert.Spec.G (xarr m c) (warr m c) p q := by
  have hs := Cert.Spec.sum_slabs (prodAt m c p q)
  have hz : ∀ (t : Fin 33) (j : Fin 3072),
      (if t.val * 3072 + j.val < 100000 then prodAt m c p q (t.val * 3072 + j.val) else 0)
        = prodAt m c p q (t.val * 3072 + j.val) := fun t j => by
    by_cases h : t.val * 3072 + j.val < 100000
    · rw [if_pos h]
    · rw [if_neg h]; unfold prodAt; rw [dif_neg h]
  simp only [hz] at hs
  rw [hs]; unfold Cert.Spec.G prodAt
  exact Finset.sum_congr rfl fun k _ => by rw [dif_pos k.isLt]

/-- The block after the last point is the matrix product. -/
theorem result_eq (c : Dev nD) (i : S1024x16.Idx) :
    accAt m c 32 (by decide) i = Cert.Spec.G (xarr m c) (warr m c) (i 0) (i 1) :=
  (congrArg (accAt m c 32 (by decide)) (eq_ix2 i)).trans
    ((acc_apply m c 32 (by decide) (i 0) (i 1)).trans (sum_prod m c (i 0) (i 1)))

/-- The run, read: the result array at the matrix product, the arguments unchanged. -/
theorem run : θ_run defs (onTc (τ := τ) (main (F := Ideal))) ⟨m, fun _ => 0, ρ⟩ fun r => ∀ c : Dev nD,
      r.2.mem ((c : Thread nD τ).loc main_v2)
        = (fun i : S1024x16.Idx => Cert.Spec.G (m ((c : Thread nD τ).loc main_arg0)) (m ((c : Thread nD τ).loc main_arg1)) (i 0) (i 1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨(((h c).1 2).trans (final_o m c)).trans (funext (result_eq m c)),
        ((h c).2 main_arg0 (Pipeline.mem_restRefs_of main_arg0 (by decide) (by decide))).trans (V_main_arg0 m c),
        ((h c).2 main_arg1 (Pipeline.mem_restRefs_of main_arg1 (by decide) (by decide))).trans (V_main_arg1 m c)⟩)
    (run_main m ρ)

end Cert.KernelIdeal.Hand

end
-- ==== Proof.RefValue.lean ====
/-
  The reference's result is `G` of its arguments: jnp's matmul on the host is one `dot_general` contracting the
  second axis of `x` with the first of `W`, which on the extended reals is the plain sum over that axis.
-/
import proofs.«152865_g9947144257871_rerun558fix_369_27_alg».proof.Proof.Gen.ReferenceIdeal.Read
import proofs.«152865_g9947144257871_rerun558fix_369_27_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

/-- The reference's one operation read at output index (p, q). -/
theorem ref_eq (x0 : (⟨S1024x100000, .f32⟩ : BufTy).Contents (Elt Ideal)) (x1 : (⟨S100000x16, .f32⟩ : BufTy).Contents (Elt Ideal))
    (p : Fin 1024) (q : Fin 16) :
    val_main_v0 (F := Ideal) x0 x1 (ix2 p q) = Cert.Spec.G x0 x1 p q := by
  -- the host's contraction is the sum over the shared axis; its two index maps at (p, q) are (p, k) and (k, q)
  rw [val_main_v0_apply]
  unfold Cert.Spec.G
  refine Finset.sum_congr rfl fun k _ => ?_
  have el : lidx_main_v0 (ix2 p q) k = ix2 p k :=
    funext fun a => match a with
      | ⟨0, _⟩ => rfl
      | ⟨1, _⟩ => rfl
  have er : ridx_main_v0 (ix2 p q) k = ix2 k q :=
    funext fun a => match a with
      | ⟨0, _⟩ => rfl
      | ⟨1, _⟩ => rfl
  rw [el, er]

end Cert.ReferenceIdeal.RefValue

end
-- ==== Proof.lean ====
/-
  The certificate of a K-blocked matrix product against jnp's matmul: `x` (1024 × 100000) times `W` (100000 × 16).

  The kernel transposes both arguments on the host and walks the contraction axis in 33 slabs of 3072: at each grid
  point it contracts slab `t` of the transposed `x` (3072 × 1024) with slab `t` of the transposed `W` (16 × 3072) on
  the matrix unit into a zero accumulator; the first point stores the product in the (1024, 16) output block, every
  later point adds it to the block. The last slab has only 1696 rows inside the arrays; the last point selects the
  zero word on the rest before contracting, so whatever the staging buffers hold there does not reach the result.

  On the extended reals the matrix unit's product into zero is the plain sum over the slab, so the block ends
  holding the sum over the 33 slabs of the slabs' sums of `x[p, k] · W[k, q]`, which re-grouped is the sum over all
  100000 `k` — jnp's `dot_general`. Only commutativity and associativity of addition are used: nothing here needs
  the inputs finite, and the precondition is never opened.

  The frames: the reference is one host operation; for the kernel (as printed, and idealized) the pipeline's frame
  run over proof data that names what each staging buffer holds at each point. No operation is rewritten by the
  idealization, so `preserves` has nothing to state.
-/
import proofs.«152865_g9947144257871_rerun558fix_369_27_alg».proof.Defs
import proofs.«152865_g9947144257871_rerun558fix_369_27_alg».proof.Proof.Gen.Kernel
import proofs.«152865_g9947144257871_rerun558fix_369_27_alg».proof.Proof.Gen.KernelIdeal
import proofs.«152865_g9947144257871_rerun558fix_369_27_alg».proof.Proof.Gen.ReferenceIdeal
import proofs.«152865_g9947144257871_rerun558fix_369_27_alg».proof.Proof.Gen.Pre_finite_inputs
import proofs.«152865_g9947144257871_rerun558fix_369_27_alg».proof.Proof.Gen.ReferenceIdeal.Run
import proofs.«152865_g9947144257871_rerun558fix_369_27_alg».proof.Proof.Gen.ReferenceIdeal.Read
import proofs.«152865_g9947144257871_rerun558fix_369_27_alg».proof.Proof.KRun
import proofs.«152865_g9947144257871_rerun558fix_369_27_alg».proof.Proof.KIValue
import proofs.«152865_g9947144257871_rerun558fix_369_27_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

/-- The kernel as printed runs to the end, faults nowhere, and leaves `x` and `W` unchanged. -/
theorem frame_p : Cert.frame_Kernel := fun m ρ _ => Cert.Kernel.Hand.frame (F := Bits) m ρ

/-- So does the idealized kernel. -/
theorem frame_pi : Cert.frame_KernelIdeal := fun m ρ _ => Cert.KernelIdeal.Hand.frame (F := Ideal) m ρ

/-- The reference is one host operation: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals both programs end with the matrix product of their (agreeing) arguments. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v0_eq]
  funext i
  have h := Cert.ReferenceIdeal.RefValue.ref_eq
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (i 0) (i 1)
  exact (congrArg (Cert.ReferenceIdeal.Read.val_main_v0 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))) (eq_ix2 i)).trans h

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
